-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x6400000 : Shape := ⟨2, ![2, 6400000]⟩
abbrev S200000 : Shape := ⟨1, ![200000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S32 .f32) (main_arg7 : FVec F S32x2 .f32) (main_arg8 : FVec F S2 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg7
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x3 .f32) (main_arg1 : IVec S2x6400000 32) (main_arg2 : IVec S200000 32) (main_arg3 : FVec F S3x16 .f32) (main_arg4 : FVec F S16 .f32) (main_arg5 : FVec F S16x32 .f32) (main_arg6 : FVec F S32 .f32) (main_arg7 : FVec F S32x2 .f32) (main_arg8 : FVec F S2 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S3x16 .f32 := Host.absf main_arg3
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_v13 main_v16
-- ==== Kernel.lean ====
abbrev S200000x3 : Shape := ⟨2, ![200000, 3]⟩
abbrev S2x6400000 : Shape := ⟨2, ![2, 6400000]⟩
abbrev S200000 : Shape := ⟨1, ![200000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x2 : Shape := ⟨2, ![32, 2]⟩
abbrev S2 : Shape := ⟨1, ![2]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x3 : Shape := ⟨2, ![10000, 3]⟩
abbrev S10000x16 : Shape := ⟨2, ![10000, 16]⟩
abbrev S6600000x16 : Shape := ⟨2, ![6600000, 16]⟩
abbrev S1x16 : Shape := ⟨2, ![1, 16]⟩
abbrev S200000x32 : Shape := ⟨2, ![200000, 32]⟩
abbrev S10000x32 : Shape := ⟨2, ![10000, 32]⟩
abbrev S6600000x32 : Shape := ⟨2, ![6600000, 32]⟩
abbrev S1x32 : Shape := ⟨2, ![1, 32]⟩
abbrev S1024x32 : Shape := ⟨2, ![1024, 32]⟩
abbrev S200000x1 : Shape := ⟨2, ![200000, 1]⟩
abbrev S1024 : Shape := ⟨1, ![1024]⟩
abbrev S1024x1 : Shape := ⟨2, ![1024, 1]⟩
abbrev S1x2 : Shape := ⟨2, ![1, 2]⟩
abbrev S1024x2 : Shape := ⟨2, ![1024, 2]⟩

abbrev nBuf : Space → Nat
  | .hbm => 98
  | .vmem => 24
  | .smem => 0
  | _ => 0

abbrev bufTy : (tb : Table) → Fin (tcTables nBuf tb) → BufTy
  | .hbm, ⟨0, _⟩ => ⟨S200000x3, .f32⟩
  | .hbm, ⟨1, _⟩ => ⟨S2x6400000, .i32⟩
  | .hbm, ⟨2, _⟩ => ⟨S200000, .i32⟩
  | .hbm, ⟨3, _⟩ => ⟨S3x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S200000, .i32⟩
  | .hbm, ⟨10, _⟩ => ⟨S1x6400000, .i32⟩
  | .hbm, ⟨11, _⟩ => ⟨S6400000, .i32⟩
  | .hbm, ⟨12, _⟩ => ⟨S1x6400000, .i32⟩
  | .hbm, ⟨13, _⟩ => ⟨S6400000, .i32⟩
  | .hbm, ⟨14, _⟩ => ⟨S6600000, .i32⟩
  | .hbm, ⟨15, _⟩ => ⟨S6600000, .i32⟩
  | .hbm, ⟨16, _⟩ => ⟨S_, .f32⟩
  | .hbm, ⟨17, _⟩ => ⟨S6600000, .f32⟩
  | .hbm, ⟨18, _⟩ => ⟨S_, .f32⟩
  | .hbm, ⟨19, _⟩ => ⟨S200000, .f32⟩
  | .hbm, ⟨20, _⟩ => ⟨S6600000x1, .i32⟩
  | .hbm, ⟨21, _⟩ => ⟨S200000, .f32⟩
  | .hbm, ⟨22, _⟩ => ⟨S200000, .f32⟩
  | .hbm, ⟨23, _⟩ => ⟨S_, .i32⟩
  | .hbm, ⟨24, _⟩ => ⟨S6600000, .i32⟩
  | .hbm, ⟨25, _⟩ => ⟨S6600000, .i1⟩
  | .hbm, ⟨26, _⟩ => ⟨S_, .i32⟩
  | .hbm, ⟨27, _⟩ => ⟨S6600000, .i32⟩
  | .hbm, ⟨28, _⟩ => ⟨S6600000, .i32⟩
  | .hbm, ⟨29, _⟩ => ⟨S6600000, .i32⟩
  | .hbm, ⟨30, _⟩ => ⟨S6600000x1, .i32⟩
  | .hbm, ⟨31, _⟩ => ⟨S6600000, .f32⟩
  | .hbm, ⟨32, _⟩ => ⟨S_, .i32⟩
  | .hbm, ⟨33, _⟩ => ⟨S6600000, .i32⟩
  | .hbm, ⟨34, _⟩ => ⟨S6600000, .i1⟩
  | .hbm, ⟨35, _⟩ => ⟨S_, .i32⟩
  | .hbm, ⟨36, _⟩ => ⟨S6600000, .i32⟩
  | .hbm, ⟨37, _⟩ => ⟨S6600000, .i32⟩
  | .hbm, ⟨38, _⟩ => ⟨S6600000, .i32⟩
  | .hbm, ⟨39, _⟩ => ⟨S6600000x1, .i32⟩
  | .hbm, ⟨40, _⟩ => ⟨S6600000, .f32⟩
  | .hbm, ⟨41, _⟩ => ⟨S6600000, .f32⟩
  | .hbm, ⟨42, _⟩ => ⟨S200000x16, .f32⟩
  | .hbm, ⟨43, _⟩ => ⟨S_, .i32⟩
  | .hbm, ⟨44, _⟩ => ⟨S6600000, .i32⟩
  | .hbm, ⟨45, _⟩ => ⟨S6600000, .i1⟩
  | .hbm, ⟨46, _⟩ => ⟨S_, .i32⟩
  | .hbm, ⟨47, _⟩ => ⟨S6600000, .i32⟩
  | .hbm, ⟨48, _⟩ => ⟨S6600000, .i32⟩
  | .hbm, ⟨49, _⟩ => ⟨S6600000, .i32⟩
  | .hbm, ⟨50, _⟩ => ⟨S6600000x1, .i32⟩
  | .hbm, ⟨51, _⟩ => ⟨S6600000x16, .f32⟩
  | .hbm, ⟨52, _⟩ => ⟨S6600000x1, .f32⟩
  | .hbm, ⟨53, _⟩ => ⟨S6600000x16, .f32⟩
  | .hbm, ⟨54, _⟩ => ⟨S6600000x16, .f32⟩
  | .hbm, ⟨55, _⟩ => ⟨S_, .f32⟩
  | .hbm, ⟨56, _⟩ => ⟨S200000x16, .f32⟩
  | .hbm, ⟨57, _⟩ => ⟨S6600000x1, .i32⟩
  | .hbm, ⟨58, _⟩ => ⟨S200000x16, .f32⟩
  | .hbm, ⟨59, _⟩ => ⟨S1x16, .f32⟩
  | .hbm, ⟨60, _⟩ => ⟨S200000x16, .f32⟩
  | .hbm, ⟨61, _⟩ => ⟨S200000x32, .f32⟩
  | .hbm, ⟨62, _⟩ => ⟨S_, .i32⟩
  | .hbm, ⟨63, _⟩ => ⟨S6600000, .i32⟩
  | .hbm, ⟨64, _⟩ => ⟨S6600000, .i1⟩
  | .hbm, ⟨65, _⟩ => ⟨S_, .i32⟩
  | .hbm, ⟨66, _⟩ => ⟨S6600000, .i32⟩
  | .hbm, ⟨67, _⟩ => ⟨S6600000, .i32⟩
  | .hbm, ⟨68, _⟩ => ⟨S6600000, .i32⟩
  | .hbm, ⟨69, _⟩ => ⟨S6600000x1, .i32⟩
  | .hbm, ⟨70, _⟩ => ⟨S6600000x32, .f32⟩
  | .hbm, ⟨71, _⟩ => ⟨S6600000x1, .f32⟩
  | .hbm, ⟨72, _⟩ => ⟨S6600000x32, .f32⟩
  | .hbm, ⟨73, _⟩ => ⟨S6600000x32, .f32⟩
  | .hbm, ⟨74, _⟩ => ⟨S_, .f32⟩
  | .hbm, ⟨75, _⟩ => ⟨S200000x32, .f32⟩
  | .hbm, ⟨76, _⟩ => ⟨S6600000x1, .i32⟩
  | .hbm, ⟨77, _⟩ => ⟨S200000x32, .f32⟩
  | .hbm, ⟨78, _⟩ => ⟨S1x32, .f32⟩
  | .hbm, ⟨79, _⟩ => ⟨S200000x32, .f32⟩
  | .hbm, ⟨80, _⟩ => ⟨S_, .f32⟩
  | .hbm, ⟨81, _⟩ => ⟨S1024x32, .f32⟩
  | .hbm, ⟨82, _⟩ => ⟨S200000x1, .i32⟩
  | .hbm, ⟨83, _⟩ => ⟨S1024x32, .f32⟩
  | .hbm, ⟨84, _⟩ => ⟨S_, .f32⟩
  | .hbm, ⟨85, _⟩ => ⟨S200000, .f32⟩
  | .hbm, ⟨86, _⟩ => ⟨S_, .f32⟩
  | .hbm, ⟨87, _⟩ => ⟨S1024, .f32⟩
  | .hbm, ⟨88, _⟩ => ⟨S200000x1, .i32⟩
  | .hbm, ⟨89, _⟩ => ⟨S1024, .f32⟩
  | .hbm, ⟨90, _⟩ => ⟨S_, .f32⟩
  | .hbm, ⟨91, _⟩ => ⟨S1024, .f32⟩
  | .hbm, ⟨92, _⟩ => ⟨S1024, .f32⟩
  | .hbm, ⟨93, _⟩ => ⟨S1024x1, .f32⟩
  | .hbm, ⟨94, _⟩ => ⟨S1024x32, .f32⟩
  | .hbm, ⟨95, _⟩ => ⟨S1024x32, .f32⟩
  | .hbm, ⟨96, _⟩ => ⟨S1x2, .f32⟩
  | .hbm, ⟨97, _⟩ => ⟨S1024x2, .f32⟩
  | .local _ .vmem, ⟨0, _⟩ => ⟨S10000x3, .f32⟩
  | .local _ .vmem, ⟨1, _⟩ => ⟨S10000x3, .f32⟩
  | .local _ .vmem, ⟨2, _⟩ => ⟨S3x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S1024x32, .f32⟩
  | .local _ .vmem, ⟨21, _⟩ => ⟨S32x2, .f32⟩
  | .local _ .vmem, ⟨22, _⟩ => ⟨S1x2, .f32⟩
  | .local _ .vmem, ⟨23, _⟩ => ⟨S1024x2, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S32x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S1024x32 : S_.BroadcastsInDim S1024x32 (![] : Fin 0 → Fin S1024x32.rank)
  bcast_S200000_S200000x1_0 : S200000.BroadcastsInDim S200000x1 (![0] : Fin 1 → Fin S200000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  shapeCasts_S2_S1x2 : S2.ShapeCasts S1x2
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x3_S3x16_S10000x16_1_0_0_1_n_n_wf : DotDims.WF S10000x3 S3x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x32_S10000x32_1_0_0_1_n_n_wf : DotDims.WF S10000x16 S16x32 S10000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  scatter_S1024x32_S200000x1_S200000x32_1_0_0_1_wf : ScatterDims.WF S1024x32 S200000x1 S200000x32 [1] [0] [0] 1
  scatter_S1024_S200000x1_S200000_n_0_0_1_wf : ScatterDims.WF S1024 S200000x1 S200000 [] [0] [0] 1
  dot_S1024x32_S32x2_S1024x2_1_0_0_1_n_n_wf : DotDims.WF S1024x32 S32x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S200000x3.size a
  hwx0_0 : ∀ i : grid0.Coords, EltTy.bits .f32 = 32 ∨ (Rect.block (s := S200000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S200000x16.size a
  hwx1_2 : ∀ i : grid1.Coords, EltTy.bits .f32 = 32 ∨ (Rect.block (s := S200000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S200000x32.size a
  hwx2_2 : ∀ i : grid2.Coords, EltTy.bits .f32 = 32 ∨ (Rect.block (s := S200000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S200000x32.size a
  hwx3_0 : ∀ i : grid3.Coords, EltTy.bits .f32 = 32 ∨ (Rect.block (s := S200000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S200000x32.size a
  hwx3_2 : ∀ i : grid3.Coords, EltTy.bits .f32 = 32 ∨ (Rect.block (s := S200000x32) S10000x32.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x32.size a ≤ S1024x32.size a
  hwx4_0 : ∀ i : grid4.Coords, EltTy.bits .f32 = 32 ∨ (Rect.block (s := S1024x32) S1024x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x2.size a ≤ S32x2.size a
  hwx4_1 : ∀ i : grid4.Coords, EltTy.bits .f32 = 32 ∨ (Rect.block (s := S32x2) S32x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x2.size a ≤ S1024x2.size a
  hwx4_3 : ∀ i : grid4.Coords, EltTy.bits .f32 = 32 ∨ (Rect.block (s := S1024x2) S1024x2.size (cc4_transform_3 i) (hinb4_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def scatter_S1024x32_S200000x1_S200000x32_1_0_0_1 : ScatterDims S1024x32 S200000x1 S200000x32 where
  updateWindowDims := [1]
  insertedWindowDims := [0]
  scatterDimsToOperandDims := [0]
  indexVectorDim := 1
  wf := scatter_S1024x32_S200000x1_S200000x32_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S1024x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1024x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S200000x3 : Shape := ⟨2, ![200000, 3]⟩
abbrev S2x6400000 : Shape := ⟨2, ![2, 6400000]⟩
abbrev S200000 : Shape := ⟨1, ![200000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x2 : Shape := ⟨2, ![32, 2]⟩
abbrev S2 : Shape := ⟨1, ![2]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x32 : Shape := ⟨2, ![200000, 32]⟩
abbrev S6600000x32 : Shape := ⟨2, ![6600000, 32]⟩
abbrev S1x32 : Shape := ⟨2, ![1, 32]⟩
abbrev S1024x32 : Shape := ⟨2, ![1024, 32]⟩
abbrev S200000x1 : Shape := ⟨2, ![200000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 156
  | .vmem => 0
  | .smem => 0
  | _ => 0

abbrev hbmTy0_0 (i : Nat) : BufTy := match i % 128 with
  | 0 => ⟨S200000x3, .f32⟩
  | 1 => ⟨S2x6400000, .i32⟩
  | 2 => ⟨S200000, .i32⟩
  | 3 => ⟨S3x16, .f32⟩
  | 4 => ⟨S16, .f32⟩
  | 5 => ⟨S16x32, .f32⟩
  | 6 => ⟨S32, .f32⟩
  | 7 => ⟨S32x2, .f32⟩
  | 8 => ⟨S2, .f32⟩
  | 9 => ⟨S200000, .i32⟩
  | 10 => ⟨S1x6400000, .i32⟩
  | 11 => ⟨S6400000, .i32⟩
  | 12 => ⟨S6600000, .i32⟩
  | 13 => ⟨S1x6400000, .i32⟩
  | 14 => ⟨S6400000, .i32⟩
  | 15 => ⟨S6600000, .i32⟩
  | 16 => ⟨S_, .f32⟩
  | 17 => ⟨S6600000, .f32⟩
  | 18 => ⟨S_, .f32⟩
  | 19 => ⟨S200000, .f32⟩
  | 20 => ⟨S6600000x1, .i32⟩
  | 21 => ⟨S200000, .f32⟩
  | 22 => ⟨S200000, .f32⟩
  | 23 => ⟨S_, .i32⟩
  | 24 => ⟨S6600000, .i32⟩
  | 25 => ⟨S6600000, .i1⟩
  | 26 => ⟨S_, .i32⟩
  | 27 => ⟨S6600000, .i32⟩
  | 28 => ⟨S6600000, .i32⟩
  | 29 => ⟨S6600000, .i32⟩
  | 30 => ⟨S6600000x1, .i32⟩
  | 31 => ⟨S6600000, .f32⟩
  | 32 => ⟨S_, .i32⟩
  | 33 => ⟨S6600000, .i32⟩
  | 34 => ⟨S6600000, .i1⟩
  | 35 => ⟨S_, .i32⟩
  | 36 => ⟨S6600000, .i32⟩
  | 37 => ⟨S6600000, .i32⟩
  | 38 => ⟨S6600000, .i32⟩
  | 39 => ⟨S6600000x1, .i32⟩
  | 40 => ⟨S6600000, .f32⟩
  | 41 => ⟨S6600000, .f32⟩
  | 42 => ⟨S200000x16, .f32⟩
  | 43 => ⟨S_, .i32⟩
  | 44 => ⟨S6600000, .i32⟩
  | 45 => ⟨S6600000, .i1⟩
  | 46 => ⟨S_, .i32⟩
  | 47 => ⟨S6600000, .i32⟩
  | 48 => ⟨S6600000, .i32⟩
  | 49 => ⟨S6600000, .i32⟩
  | 50 => ⟨S6600000x1, .i32⟩
  | 51 => ⟨S6600000x16, .f32⟩
  | 52 => ⟨S6600000x1, .f32⟩
  | 53 => ⟨S6600000x16, .f32⟩
  | 54 => ⟨S6600000x16, .f32⟩
  | 55 => ⟨S_, .f32⟩
  | 56 => ⟨S200000x16, .f32⟩
  | 57 => ⟨S6600000x1, .i32⟩
  | 58 => ⟨S200000x16, .f32⟩
  | 59 => ⟨S1x16, .f32⟩
  | 60 => ⟨S200000x16, .f32⟩
  | 61 => ⟨S200000x16, .f32⟩
  | 62 => ⟨S_, .f32⟩
  | 63 => ⟨S200000x16, .f32⟩
  | 64 => ⟨S200000x16, .f32⟩
  | 65 => ⟨S200000, .i32⟩
  | 66 => ⟨S1x6400000, .i32⟩
  | 67 => ⟨S6400000, .i32⟩
  | 68 => ⟨S6600000, .i32⟩
  | 69 => ⟨S1x6400000, .i32⟩
  | 70 => ⟨S6400000, .i32⟩
  | 71 => ⟨S6600000, .i32⟩
  | 72 => ⟨S_, .f32⟩
  | 73 => ⟨S6600000, .f32⟩
  | 74 => ⟨S_, .f32⟩
  | 75 => ⟨S200000, .f32⟩
  | 76 => ⟨S6600000x1, .i32⟩
  | 77 => ⟨S200000, .f32⟩
  | 78 => ⟨S200000, .f32⟩
  | 79 => ⟨S_, .i32⟩
  | 80 => ⟨S6600000, .i32⟩
  | 81 => ⟨S6600000, .i1⟩
  | 82 => ⟨S_, .i32⟩
  | 83 => ⟨S6600000, .i32⟩
  | 84 => ⟨S6600000, .i32⟩
  | 85 => ⟨S6600000, .i32⟩
  | 86 => ⟨S6600000x1, .i32⟩
  | 87 => ⟨S6600000, .f32⟩
  | 88 => ⟨S_, .i32⟩
  | 89 => ⟨S6600000, .i32⟩
  | 90 => ⟨S6600000, .i1⟩
  | 91 => ⟨S_, .i32⟩
  | 92 => ⟨S6600000, .i32⟩
  | 93 => ⟨S6600000, .i32⟩
  | 94 => ⟨S6600000, .i32⟩
  | 95 => ⟨S6600000x1, .i32⟩
  | 96 => ⟨S6600000, .f32⟩
  | 97 => ⟨S6600000, .f32⟩
  | 98 => ⟨S200000x32, .f32⟩
  | 99 => ⟨S_, .i32⟩
  | 100 => ⟨S6600000, .i32⟩
  | 101 => ⟨S6600000, .i1⟩
  | 102 => ⟨S_, .i32⟩
  | 103 => ⟨S6600000, .i32⟩
  | 104 => ⟨S6600000, .i32⟩
  | 105 => ⟨S6600000, .i32⟩
  | 106 => ⟨S6600000x1, .i32⟩
  | 107 => ⟨S6600000x32, .f32⟩
  | 108 => ⟨S6600000x1, .f32⟩
  | 109 => ⟨S6600000x32, .f32⟩
  | 110 => ⟨S6600000x32, .f32⟩
  | 111 => ⟨S_, .f32⟩
  | 112 => ⟨S200000x32, .f32⟩
  | 113 => ⟨S6600000x1, .i32⟩
  | 114 => ⟨S200000x32, .f32⟩
  | 115 => ⟨S1x32, .f32⟩
  | 116 => ⟨S200000x32, .f32⟩
  | 117 => ⟨S200000x32, .f32⟩
  | 118 => ⟨S_, .f32⟩
  | 119 => ⟨S200000x32, .f32⟩
  | 120 => ⟨S200000x32, .f32⟩
  | 121 => ⟨S_, .f32⟩
  | 122 => ⟨S1024x32, .f32⟩
  | 123 => ⟨S200000x1, .i32⟩
  | 124 => ⟨S1024x32, .f32⟩
  | 125 => ⟨S_, .f32⟩
  | 126 => ⟨S200000, .f32⟩
  | 127 => ⟨S_, .f32⟩
  | _ => ⟨S200000x3, .f32⟩

abbrev hbmTy0_1 (i : Nat) : BufTy := match i % 128 with
  | 0 => ⟨S1024, .f32⟩
  | 1 => ⟨S200000x1, .i32⟩
  | 2 => ⟨S1024, .f32⟩
  | 3 => ⟨S_, .f32⟩
  | 4 => ⟨S1024, .f32⟩
  | 5 => ⟨S1024, .f32⟩
  | 6 => ⟨S1024x1, .f32⟩
  | 7 => ⟨S1024x32, .f32⟩
  | 8 => ⟨S1024x32, .f32⟩
  | 9 => ⟨S1024x2, .f32⟩
  | 10 => ⟨S1x2, .f32⟩
  | 11 => ⟨S1024x2, .f32⟩
  | 12 => ⟨S1024x2, .f32⟩
  | 13 => ⟨S_, .f32⟩
  | 14 => ⟨S1024, .f32⟩
  | 15 => ⟨S_, .f32⟩
  | 16 => ⟨S1024, .f32⟩
  | 17 => ⟨S1024, .f32⟩
  | 18 => ⟨S1024x1, .f32⟩
  | 19 => ⟨S1024x2, .f32⟩
  | 20 => ⟨S1024x2, .f32⟩
  | 21 => ⟨S1024x2, .f32⟩
  | 22 => ⟨S_, .f32⟩
  | 23 => ⟨S1024, .f32⟩
  | 24 => ⟨S1024x1, .f32⟩
  | 25 => ⟨S1024x1, .f32⟩
  | 26 => ⟨S1024x2, .f32⟩
  | 27 => ⟨S1024x2, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_call1_cst : Ref sig .tc := ⟨.hbm, 118, rfl⟩
abbrev main_call1_v0 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call2_cst : Ref sig .tc := ⟨.hbm, 141, rfl⟩
abbrev main_call2_v0 : Ref sig .tc := ⟨.hbm, 142, rfl⟩
abbrev main_call2_cst_0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_cst_1 : Ref sig .tc := ⟨.hbm, 150, rfl⟩
abbrev main_call2_v7 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_v106 : Ref sig .tc := ⟨.hbm, 155, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S1024x32 : S_.BroadcastsInDim S1024x32 (![] : Fin 0 → Fin S1024x32.rank)
  bcast_S200000_S200000x1_0 : S200000.BroadcastsInDim S200000x1 (![0] : Fin 1 → Fin S200000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  reducesTo_S1024x2_S1024_d1 : S1024x2.ReducesTo [1] S1024
  h_S_ : 0 < S_.numel
  bcast_S1024x1_S1024x2_0_1 : S1024x1.BroadcastsInDim S1024x2 (![0, 1] : Fin 2 → Fin S1024x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x3_S3x16_S200000x16_1_0_0_1_n_n_wf : DotDims.WF S200000x3 S3x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x32_S200000x32_1_0_0_1_n_n_wf : DotDims.WF S200000x16 S16x32 S200000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  scatter_S1024x32_S200000x1_S200000x32_1_0_0_1_wf : ScatterDims.WF S1024x32 S200000x1 S200000x32 [1] [0] [0] 1
  scatter_S1024_S200000x1_S200000_n_0_0_1_wf : ScatterDims.WF S1024 S200000x1 S200000 [] [0] [0] 1
  dot_S1024x32_S32x2_S1024x2_1_0_0_1_n_n_wf : DotDims.WF S1024x32 S32x2 S1024x2 [1] [0] [0] [1] [] []

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x3_S3x16_S200000x16_1_0_0_1_n_n : DotDims S200000x3 S3x16 S200000x16 where
  lhsContracting := [1]
  rhsContracting := [0]
  lhsNonContracting := [0]
  rhsNonContracting := [1]
  lhsBatch := []
  rhsBatch := []
  wf := dot_S200000x3_S3x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x32_S200000x32_1_0_0_1_n_n : DotDims S200000x16 S16x32 S200000x32 where
  lhsContracting := [1]
  rhsContracting := [0]
  lhsNonContracting := [0]
  rhsNonContracting := [1]
  lhsBatch := []
  rhsBatch := []
  wf := dot_S200000x16_S16x32_S200000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def scatter_S1024x32_S200000x1_S200000x32_1_0_0_1 : ScatterDims S1024x32 S200000x1 S200000x32 where
  updateWindowDims := [1]
  insertedWindowDims := [0]
  scatterDimsToOperandDims := [0]
  indexVectorDim := 1
  wf := scatter_S1024x32_S200000x1_S200000x32_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf

class Facts : Prop extends Facts₀ where

variable [Facts]
-- ==== Proof.Fns.lean ====
/-
  The functions the certificate's stages are stated with, over literal rank-2 shapes and the extended reals:
  the plain matrix product, a row bias followed by the positive part, and the two groupings of the
  logarithm of a softmax along the second axis.
-/
import Idealize.ShloMosaic.PureOps.Ideal
import Idealize.ShloMosaic.Lib.ValueIdx

noncomputable section

open scoped BigOperators

namespace Cert.Fns
open Idealize.ShloMosaic Idealize.ShloMosaic.ValueIdx

/-- The product of an M×K array with a K×N array: entry (p, q) is the sum over κ of x (p, κ) · w (κ, q). -/
def mat {M K N : Nat} (x : (⟨2, ![M, K]⟩ : Shape).Idx → EReal) (w : (⟨2, ![K, N]⟩ : Shape).Idx → EReal) :
    (⟨2, ![M, N]⟩ : Shape).Idx → EReal :=
  fun i => ∑ κ : Fin K, x (ix2 (i 0) κ) * w (ix2 κ (i 1))

theorem mat_apply {M K N : Nat} (x : (⟨2, ![M, K]⟩ : Shape).Idx → EReal) (w : (⟨2, ![K, N]⟩ : Shape).Idx → EReal)
    (p : Fin M) (q : Fin N) : mat x w (ix2 p q) = ∑ κ : Fin K, x (ix2 p κ) * w (ix2 κ q) := rfl

/-- The float zero of the programs, kept as its bit pattern. -/
abbrev zero32 : EReal := Ideal.ofBits .f32 0x00000000#32

/-- A 1×N row added to every row of an M×N array, then the maximum with zero. -/
def biasRelu {M N : Nat} (a : (⟨2, ![M, N]⟩ : Shape).Idx → EReal) (b : (⟨2, ![1, N]⟩ : Shape).Idx → EReal) :
    (⟨2, ![M, N]⟩ : Shape).Idx → EReal :=
  fun i => max (a i + b (ix2 0 (i 1))) zero32

theorem biasRelu_apply {M N : Nat} (a : (⟨2, ![M, N]⟩ : Shape).Idx → EReal) (b : (⟨2, ![1, N]⟩ : Shape).Idx → EReal)
    (p : Fin M) (q : Fin N) : biasRelu a b (ix2 p q) = max (a (ix2 p q) + b (ix2 0 q)) zero32 := rfl

/-- A 1×N row added to every row of an M×N array. -/
def addRow {M N : Nat} (a : (⟨2, ![M, N]⟩ : Shape).Idx → EReal) (b : (⟨2, ![1, N]⟩ : Shape).Idx → EReal) :
    (⟨2, ![M, N]⟩ : Shape).Idx → EReal :=
  fun i => a i + b (ix2 0 (i 1))

theorem addRow_apply {M N : Nat} (a : (⟨2, ![M, N]⟩ : Shape).Idx → EReal) (b : (⟨2, ![1, N]⟩ : Shape).Idx → EReal)
    (p : Fin M) (q : Fin N) : addRow a b (ix2 p q) = a (ix2 p q) + b (ix2 0 q) := rfl

/-- A length-N array as a 1×N row. -/
def rowOf {N : Nat} (b : (⟨1, ![N]⟩ : Shape).Idx → EReal) : (⟨2, ![1, N]⟩ : Shape).Idx → EReal := fun i => b (ix1 (i 1))

theorem rowOf_apply {N : Nat} (b : (⟨1, ![N]⟩ : Shape).Idx → EReal) (p : Fin 1) (q : Fin N) : rowOf b (ix2 p q) = b (ix1 q) := rfl

/-- The greatest entry of row p of an M×2 array. -/
def rowMax {M : Nat} (l : (⟨2, ![M, 2]⟩ : Shape).Idx → EReal) (p : Fin M) : EReal := max (l (ix2 p 0)) (l (ix2 p 1))

/-- The sum over row p of the exponentials of the entries less the row's maximum. -/
def rowSumExp {M : Nat} (l : (⟨2, ![M, 2]⟩ : Shape).Idx → EReal) (p : Fin M) : EReal :=
  Ideal.exp (l (ix2 p 0) - rowMax l p) + Ideal.exp (l (ix2 p 1) - rowMax l p)

/-- The logarithm of a softmax along the second axis of an M×2 array, grouped as
    l − (max + log Σ exp (l − max)). -/
def lsmOuter {M : Nat} (l : (⟨2, ![M, 2]⟩ : Shape).Idx → EReal) : (⟨2, ![M, 2]⟩ : Shape).Idx → EReal :=
  fun i => l i - (rowMax l (i 0) + Ideal.log (rowSumExp l (i 0)))

/-- The same, grouped as (l − max) − log Σ exp (l − max). -/
def lsmInner {M : Nat} (l : (⟨2, ![M, 2]⟩ : Shape).Idx → EReal) : (⟨2, ![M, 2]⟩ : Shape).Idx → EReal :=
  fun i => (l i - rowMax l (i 0)) - Ideal.log (rowSumExp l (i 0))

end Cert.Fns

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Reg0.lean ====
/-
  Region 0: each of the twenty grid points multiplies a block of 10000 rows of the left array by the whole right
  array; the blocks tile the rows, so the output array ends as the product of the two arrays the region finds.
-/
import proofs.«133488_j43207370998208_1_alg».proof.Proof.Gen.KernelIdeal.Frame
import proofs.«133488_j43207370998208_1_alg».proof.Proof.Fns
import proofs.«133488_j43207370998208_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Fns
open scoped BigOperators

/- The buffer contents the region is entered from: a parameter. -/
variable (V : (c : Dev nD) → (b : Ref sig .tc) → Buf (Elt Ideal) ((c : Thread nD τ).loc b))

/-- The region's two input arrays as it finds them, at their literal types. -/
abbrev xarr (c : Dev nD) : FVec Ideal S200000x3 .f32 := V c main_arg0
abbrev warr (c : Dev nD) : FVec Ideal S3x16 .f32 := V c main_arg3

/-- The accesses' zero offsets, as the constant function. -/
theorem zero_off : (![0, 0] : Fin 2 → Nat) = fun _ => 0 := funext fun a => by fin_cases a <;> rfl

/-- The body's arithmetic at an index: narrowing changes nothing over the extended reals, and the product into a zero
    accumulator is the sum over the contracted coordinate. -/
theorem pay_apply (v0 : Vec Ideal S10000x3 .f32) (v2 : Vec Ideal S3x16 .f32) (p : Fin 10000) (q : Fin 16) :
    k0_pay1 (F := Ideal) v0 v2 (ix2 p q) = ∑ κ : Fin 3, v0 (ix2 p κ) * v2 (ix2 κ q) := by
  unfold k0_pay1
  exact PlainDot.matmul_zero_plain dot_S10000x3_S3x16_S10000x16_1_0_0_1_n_n ⟨rfl, rfl, rfl, rfl, rfl, rfl⟩ none _ _ p q

/-- The index maps over the grid: the left operand's and the output's block index along the rows is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block's product is the entry of the whole product it sits at, when the left block's row is the
    array's row and the right block is the right array. -/
theorem entry_eq (x0 : Vec Ideal S10000x3 .f32) (x1 : Vec Ideal S3x16 .f32) (X : FVec Ideal S200000x3 .f32) (W : FVec Ideal S3x16 .f32)
    (y : S10000x16.Idx) (i : S200000x16.Idx)
    (h0 : ∀ κ : Fin 3, x0 (ix2 (y 0) κ) = X (ix2 (i 0) κ))
    (h1 : ∀ κ : Fin 3, x1 (ix2 κ (y 1)) = W (ix2 κ (i 1))) :
    k0_pay1 (F := Ideal) x0 x1 y = mat X W i := by
  obtain ⟨p, q, rfl⟩ : ∃ (p : Fin 10000) (q : Fin 16), y = ix2 p q := ⟨y 0, y 1, eq_ix2 y⟩
  obtain ⟨r, s, rfl⟩ : ∃ (r : Fin 200000) (s : Fin 16), i = ix2 r s := ⟨i 0, i 1, eq_ix2 i⟩
  rw [pay_apply, mat_apply]
  exact Finset.sum_congr rfl fun κ _ => congrArg₂ (· * ·) (h0 κ) (h1 κ)

/-- What point t writes back is block t of the product of the two arrays. -/
theorem flushed_eq (c : Dev nD) (t : Fin cfg0.N) :
    (dat0 (F := Ideal) V c).flushed 2 t = ((cfg0.win 2).blk t).view.read (Elt Ideal) (mat (xarr V c) (warr V c) : FVec Ideal S200000x16 .f32) := by
  show (cfg0.win 2).cut (grid0.coords t) ((dat0 V c).after 2 t) = _
  rw [after0_2]
  unfold out0_2
  rw [View.canon_unit_zero zero_off]
  simp only [View.ld_unit_zero (S := S10000x3) zero_off, View.ld_unit_zero (S := S3x16) zero_off]
  obtain ⟨e00, e01, e10, e11, e20, e21⟩ := idx_facts t
  funext j
  show k0_pay1 (iblk0 V c 0 t) (iblk0 V c 1 t) j = mat (xarr V c) (warr V c) (((cfg0.win 2).blk t).view.emb j)
  refine entry_eq _ _ _ _ j _ (fun κ => ?_) (fun κ => ?_)
  · show V c main_arg0 (((cfg0.win 0).blk t).view.emb (ix2 (j 0) κ)) = V c main_arg0 (ix2 ((((cfg0.win 2).blk t).view.emb j) 0) κ)
    refine congrArg _ (funext fun a => Fin.ext ?_)
    match a with
    | ⟨0, _⟩ => show win0_0.index t (0 : Fin 2) * 10000 + 1 * (j 0).val = win0_2.index t (0 : Fin 2) * 10000 + 1 * (j 0).val; rw [e00, e20]
    | ⟨1, _⟩ => show win0_0.index t (1 : Fin 2) * 3 + 1 * κ.val = κ.val; rw [e01]; omega
  · show V c main_arg3 (((cfg0.win 1).blk t).view.emb (ix2 κ (j 1))) = V c main_arg3 (ix2 κ ((((cfg0.win 2).blk t).view.emb j) 1))
    refine congrArg _ (funext fun a => Fin.ext ?_)
    match a with
    | ⟨0, _⟩ => show win0_1.index t (0 : Fin 2) * 3 + 1 * κ.val = κ.val; rw [e10]; omega
    | ⟨1, _⟩ => show win0_1.index t (1 : Fin 2) * 16 + 1 * (j 1).val = win0_2.index t (1 : Fin 2) * 16 + 1 * (j 1).val; rw [e11, e21]

/-- An index of the output array lies in point t's block iff each coordinate lies in the block's range on its axis. -/
theorem mem_blk (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v27).slice (win0_2.rect t)).set ↔ _
  rw [View.set_slice_whole, Rect.mem_set_unit]
  exact Iff.rfl

/-- Every index of the output array lies in the block of the point numbered by its row divided by the block's height. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have ht : (i 0).val / 10000 < cfg0.N := by show (i 0).val / 10000 < 20; omega
  refine ⟨⟨(i 0).val / 10000, ht⟩, flush0_2 _, ?_⟩
  obtain ⟨-, -, -, -, e20, e21⟩ := idx_facts ⟨(i 0).val / 10000, ht⟩
  rw [mem_blk]
  intro a
  match a with
  | ⟨0, _⟩ => show win0_2.index _ (0 : Fin 2) * 10000 ≤ (i 0).val ∧ (i 0).val < win0_2.index _ (0 : Fin 2) * 10000 + 10000; rw [e20]; show (i 0).val / 10000 * 10000 ≤ (i 0).val ∧ (i 0).val < (i 0).val / 10000 * 10000 + 10000; omega
  | ⟨1, _⟩ => show win0_2.index _ (1 : Fin 2) * 16 ≤ (i 1).val ∧ (i 1).val < win0_2.index _ (1 : Fin 2) * 16 + 16; rw [e21]; omega

/-- After the region its output array is the matrix product of its two input arrays. -/
theorem arr (c : Dev nD) : (dat0 (F := Ideal) V c).arrAt 2 cfg0.N = (mat (xarr V c) (warr V c) : FVec Ideal S200000x16 .f32) :=
  (dat0 (F := Ideal) V c).arrAt_eq_of_cover 2 (mat (xarr V c) (warr V c) : FVec Ideal S200000x16 .f32) (fun t _ => flushed_eq V c t) cover

end Cert.KernelIdeal.Reg0

end
-- ==== Proof.Reg1.lean ====
/-
  Region 1: each of the twenty grid points adds the 1×N row to a block of 10000 rows and takes the maximum with
  zero; the blocks tile the rows, so the output array ends as that function of the two arrays the region finds.
-/
import proofs.«133488_j43207370998208_1_alg».proof.Proof.Gen.KernelIdeal.Frame
import proofs.«133488_j43207370998208_1_alg».proof.Proof.Fns
import proofs.«133488_j43207370998208_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Fns

/- The buffer contents the region is entered from: a parameter. -/
variable (V : (c : Dev nD) → (b : Ref sig .tc) → Buf (Elt Ideal) ((c : Thread nD τ).loc b))

/-- The region's two input arrays as it finds them, at their literal types. -/
abbrev aarr (c : Dev nD) : FVec Ideal S200000x16 .f32 := V c main_v40
abbrev barr (c : Dev nD) : FVec Ideal S1x16 .f32 := V c main_v41

/-- The offset of an access to a whole staging buffer: zero on both axes. -/
theorem origin_zero : (![0, 0] : Fin 2 → Nat) = fun _ => 0 := funext fun a => by fin_cases a <;> rfl

/-- The body's arithmetic at one entry of a block: the block's entry plus the row's entry in that column, then the
    maximum with zero. -/
theorem pay_apply (x0 : Vec Ideal S10000x16 .f32) (x1 : Vec Ideal S1x16 .f32) (p : Fin 10000) (q : Fin 16) :
    k1_pay1 x0 x1 (ix2 p q) = max (x0 (ix2 p q) + x1 (ix2 0 q)) (Ideal.ofBits .f32 0x00000000#32) := by
  unfold k1_pay1
  simp only [shapeCast_self]
  rw [maximumf_apply, addf_apply, broadcast_apply, broadcastTo_1b_ab_apply]
  rfl

/-- The block indices over the twenty grid points: at point t the first input and the output are at block (t, 0),
    the row at block (0, 0). -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Block t of the first input: its entry (p, q) is entry (10000 t + p, q) of the array. -/
theorem ablk_apply (c : Dev nD) (t : Fin cfg1.N) (p : Fin 10000) (q : Fin 16) (k : S200000x16.Idx)
    (hk0 : (k 0).val = t.val * 10000 + p.val) (hk1 : (k 1).val = q.val) :
    (iblk1 V c 0 t : Vec Ideal S10000x16 .f32) (ix2 p q) = aarr V c k := by
  obtain ⟨e0, e1, -⟩ := index_facts t
  unfold iblk1
  rw [View.read_apply]
  show V c main_v40 _ = V c main_v40 _
  congr 1
  funext a
  apply Fin.ext
  match a with
  | ⟨0, _⟩ => show win1_0.index t (0 : Fin 2) * 10000 + 1 * p.val = (k 0).val; rw [e0, hk0]; omega
  | ⟨1, _⟩ => show win1_0.index t (1 : Fin 2) * 16 + 1 * q.val = (k 1).val; rw [e1, hk1]; omega

/-- The row's one block, the same at every point: its entry (0, q) is the row's entry (0, q). -/
theorem bblk_apply (c : Dev nD) (t : Fin cfg1.N) (q : Fin 16) :
    (iblk1 V c 1 t : Vec Ideal S1x16 .f32) (ix2 0 q) = barr V c (ix2 0 q) := by
  obtain ⟨-, -, e0, e1, -⟩ := index_facts t
  unfold iblk1
  rw [View.read_apply]
  show V c main_v41 _ = V c main_v41 _
  congr 1
  funext a
  apply Fin.ext
  match a with
  | ⟨0, _⟩ => show win1_1.index t (0 : Fin 2) * 1 + 1 * 0 = 0; rw [e0]
  | ⟨1, _⟩ => show win1_1.index t (1 : Fin 2) * 16 + 1 * q.val = q.val; rw [e1]; omega

/-- What the body leaves at entry y of the output's buffer at point t is the function of the two arrays at the
    array index k that y stands for: row 10000 t + y₀, column y₁. -/
theorem point_eq (c : Dev nD) (t : Fin cfg1.N) (y : S10000x16.Idx) (k : S200000x16.Idx)
    (hk0 : (k 0).val = t.val * 10000 + (y 0).val) (hk1 : (k 1).val = (y 1).val) :
    k1_pay1 (iblk1 V c 0 t) (iblk1 V c 1 t) y = biasRelu (aarr V c) (barr V c) k := by
  obtain ⟨p, q, rfl⟩ : ∃ (p : Fin 10000) (q : Fin 16), y = ix2 p q := ⟨y 0, y 1, eq_ix2 y⟩
  obtain ⟨r, s, rfl⟩ : ∃ (r : Fin 200000) (s : Fin 16), k = ix2 r s := ⟨k 0, k 1, eq_ix2 k⟩
  obtain rfl : s = q := Fin.ext hk1
  refine (pay_apply (iblk1 V c 0 t) (iblk1 V c 1 t) p s).trans ?_
  rw [biasRelu_apply]
  exact congrArg₂ (fun u v => max (u + v) zero32) (ablk_apply V c t p s (ix2 r s) hk0 rfl) (bblk_apply V c t s)

/-- What point t writes back is block t of the function of the two arrays. -/
theorem flushed_eq (c : Dev nD) (t : Fin cfg1.N) :
    (dat1 (F := Ideal) V c).flushed 2 t
      = ((cfg1.win 2).blk t).view.read (Elt Ideal) (biasRelu (aarr V c) (barr V c) : FVec Ideal S200000x16 .f32) := by
  show (cfg1.win 2).cut (grid1.coords t) ((dat1 (F := Ideal) V c).after 2 t) = _
  rw [after1_2]
  unfold out1_2
  rw [View.canon_unit_zero origin_zero]
  simp only [View.ld_unit_zero (S := S10000x16) origin_zero, View.ld_unit_zero (S := S1x16) origin_zero]
  obtain ⟨-, -, -, -, e0, e1⟩ := index_facts t
  funext j
  show k1_pay1 (iblk1 V c 0 t) (iblk1 V c 1 t) j
    = biasRelu (aarr V c) (barr V c) (((cfg1.win 2).blk t).view.emb j)
  refine point_eq V c t j _ ?_ ?_
  · show win1_2.index t (0 : Fin 2) * 10000 + 1 * (j 0).val = t.val * 10000 + (j 0).val
    rw [e0]; omega
  · show win1_2.index t (1 : Fin 2) * 16 + 1 * (j 1).val = (j 1).val
    rw [e1]; omega

/-- An index of the array is in point t's block iff each coordinate is in the block's range on its axis. -/
theorem mem_blk (t : Fin cfg1.N) (i : S200000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v42).slice (win1_2.rect t)).set ↔ _
  rw [View.set_slice_whole, Rect.mem_set_unit]
  exact Iff.rfl

/-- The twenty blocks of 10000 rows tile the 200000 rows: row r is in the block of point r / 10000. -/
theorem cover (i : S200000x16.Idx) :
    ∃ t : Fin cfg1.N, (cfg1.win 2).flush t = true ∧ i ∈ ((cfg1.win 2).blk t).view.set := by
  have hi0 : (i 0).val < 200000 := (i 0).isLt
  have hi1 : (i 1).val < 16 := (i 1).isLt
  have ht : (i 0).val / 10000 < cfg1.N := by
    show (i 0).val / 10000 < 20
    omega
  obtain ⟨-, -, -, -, e0, e1⟩ := index_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_2.index ⟨(i 0).val / 10000, ht⟩ (1 : Fin 2) * 16 ≤ (i 1).val
      ∧ (i 1).val < win1_2.index ⟨(i 0).val / 10000, ht⟩ (1 : Fin 2) * 16 + 16
    rw [e1]
    omega

/-- After the region its output array is the row bias added to every row, then the maximum with zero. -/
theorem arr (c : Dev nD) : (dat1 (F := Ideal) V c).arrAt 2 cfg1.N = (biasRelu (aarr V c) (barr V c) : FVec Ideal S200000x16 .f32) :=
  (dat1 (F := Ideal) V c).arrAt_eq_of_cover 2 (biasRelu (aarr V c) (barr V c) : FVec Ideal S200000x16 .f32)
    (fun t _ => flushed_eq V c t) cover

end Cert.KernelIdeal.Reg1

end
-- ==== Proof.Reg2.lean ====
/-
  Region 2: each of the twenty grid points multiplies a block of 10000 rows of the left array by the whole right
  array; the blocks tile the rows, so the output array ends as the product of the two arrays the region finds.
-/
import proofs.«133488_j43207370998208_1_alg».proof.Proof.Gen.KernelIdeal.Frame
import proofs.«133488_j43207370998208_1_alg».proof.Proof.Fns
import proofs.«133488_j43207370998208_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Fns
open scoped BigOperators

/- The buffer contents the region is entered from: a parameter. -/
variable (V : (c : Dev nD) → (b : Ref sig .tc) → Buf (Elt Ideal) ((c : Thread nD τ).loc b))

/-- The region's two input arrays as it finds them, at their literal types. -/
abbrev xarr (c : Dev nD) : FVec Ideal S200000x16 .f32 := V c main_v42
abbrev warr (c : Dev nD) : FVec Ideal S16x32 .f32 := V c main_arg5

/-- The accesses' zero offsets, as the constant function. -/
theorem zero_off : (![0, 0] : Fin 2 → Nat) = fun _ => 0 := funext fun a => by fin_cases a <;> rfl

/-- The body's arithmetic at an index: a cast to the same shape and narrowing change nothing over the extended reals, and
    the product into a zero accumulator is the sum over the contracted coordinate. -/
theorem pay_apply (v0 : Vec Ideal S10000x16 .f32) (v3 : Vec Ideal S16x32 .f32) (p : Fin 10000) (q : Fin 32) :
    k2_pay1 (F := Ideal) v0 v3 (ix2 p q) = ∑ κ : Fin 16, v0 (ix2 p κ) * v3 (ix2 κ q) := by
  unfold k2_pay1
  rw [shapeCast_self]
  exact PlainDot.matmul_zero_plain dot_S10000x16_S16x32_S10000x32_1_0_0_1_n_n ⟨rfl, rfl, rfl, rfl, rfl, rfl⟩ none _ _ p q

/-- The index maps over the grid: the left operand's and the output's block index along the rows is the point's number,
    every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a block's product is the entry of the whole product it sits at, when the left block's row is the
    array's row and the right block is the right array. -/
theorem entry_eq (x0 : Vec Ideal S10000x16 .f32) (x1 : Vec Ideal S16x32 .f32) (X : FVec Ideal S200000x16 .f32) (W : FVec Ideal S16x32 .f32)
    (y : S10000x32.Idx) (i : S200000x32.Idx)
    (h0 : ∀ κ : Fin 16, x0 (ix2 (y 0) κ) = X (ix2 (i 0) κ))
    (h1 : ∀ κ : Fin 16, x1 (ix2 κ (y 1)) = W (ix2 κ (i 1))) :
    k2_pay1 (F := Ideal) x0 x1 y = mat X W i := by
  obtain ⟨p, q, rfl⟩ : ∃ (p : Fin 10000) (q : Fin 32), y = ix2 p q := ⟨y 0, y 1, eq_ix2 y⟩
  obtain ⟨r, s, rfl⟩ : ∃ (r : Fin 200000) (s : Fin 32), i = ix2 r s := ⟨i 0, i 1, eq_ix2 i⟩
  rw [pay_apply, mat_apply]
  exact Finset.sum_congr rfl fun κ _ => congrArg₂ (· * ·) (h0 κ) (h1 κ)

/-- What point t writes back is block t of the product of the two arrays. -/
theorem flushed_eq (c : Dev nD) (t : Fin cfg2.N) :
    (dat2 (F := Ideal) V c).flushed 2 t = ((cfg2.win 2).blk t).view.read (Elt Ideal) (mat (xarr V c) (warr V c) : FVec Ideal S200000x32 .f32) := by
  show (cfg2.win 2).cut (grid2.coords t) ((dat2 V c).after 2 t) = _
  rw [after2_2]
  unfold out2_2
  rw [View.canon_unit_zero zero_off]
  simp only [View.ld_unit_zero (S := S10000x16) zero_off, View.ld_unit_zero (S := S16x32) zero_off]
  obtain ⟨e00, e01, e10, e11, e20, e21⟩ := idx_facts t
  funext j
  show k2_pay1 (iblk2 V c 0 t) (iblk2 V c 1 t) j = mat (xarr V c) (warr V c) (((cfg2.win 2).blk t).view.emb j)
  refine entry_eq _ _ _ _ j _ (fun κ => ?_) (fun κ => ?_)
  · show V c main_v42 (((cfg2.win 0).blk t).view.emb (ix2 (j 0) κ)) = V c main_v42 (ix2 ((((cfg2.win 2).blk t).view.emb j) 0) κ)
    refine congrArg _ (funext fun a => Fin.ext ?_)
    match a with
    | ⟨0, _⟩ => show win2_0.index t (0 : Fin 2) * 10000 + 1 * (j 0).val = win2_2.index t (0 : Fin 2) * 10000 + 1 * (j 0).val; rw [e00, e20]
    | ⟨1, _⟩ => show win2_0.index t (1 : Fin 2) * 16 + 1 * κ.val = κ.val; rw [e01]; omega
  · show V c main_arg5 (((cfg2.win 1).blk t).view.emb (ix2 κ (j 1))) = V c main_arg5 (ix2 κ ((((cfg2.win 2).blk t).view.emb j) 1))
    refine congrArg _ (funext fun a => Fin.ext ?_)
    match a with
    | ⟨0, _⟩ => show win2_1.index t (0 : Fin 2) * 16 + 1 * κ.val = κ.val; rw [e10]; omega
    | ⟨1, _⟩ => show win2_1.index t (1 : Fin 2) * 32 + 1 * (j 1).val = win2_2.index t (1 : Fin 2) * 32 + 1 * (j 1).val; rw [e11, e21]

/-- An index of the output array lies in point t's block iff each coordinate lies in the block's range on its axis. -/
theorem mem_blk (t : Fin cfg2.N) (i : S200000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v43).slice (win2_2.rect t)).set ↔ _
  rw [View.set_slice_whole, Rect.mem_set_unit]
  exact Iff.rfl

/-- Every index of the output array lies in the block of the point numbered by its row divided by the block's height. -/
theorem cover (i : S200000x32.Idx) : ∃ t : Fin cfg2.N, (cfg2.win 2).flush t = true ∧ i ∈ ((cfg2.win 2).blk t).view.set := by
  have hi0 : (i 0).val < 200000 := (i 0).isLt
  have hi1 : (i 1).val < 32 := (i 1).isLt
  have ht : (i 0).val / 10000 < cfg2.N := by show (i 0).val / 10000 < 20; omega
  refine ⟨⟨(i 0).val / 10000, ht⟩, flush2_2 _, ?_⟩
  obtain ⟨-, -, -, -, e20, e21⟩ := idx_facts ⟨(i 0).val / 10000, ht⟩
  rw [mem_blk]
  intro a
  match a with
  | ⟨0, _⟩ => show win2_2.index _ (0 : Fin 2) * 10000 ≤ (i 0).val ∧ (i 0).val < win2_2.index _ (0 : Fin 2) * 10000 + 10000; rw [e20]; show (i 0).val / 10000 * 10000 ≤ (i 0).val ∧ (i 0).val < (i 0).val / 10000 * 10000 + 10000; omega
  | ⟨1, _⟩ => show win2_2.index _ (1 : Fin 2) * 32 ≤ (i 1).val ∧ (i 1).val < win2_2.index _ (1 : Fin 2) * 32 + 32; rw [e21]; omega

/-- After the region its output array is the matrix product of its two input arrays. -/
theorem arr (c : Dev nD) : (dat2 (F := Ideal) V c).arrAt 2 cfg2.N = (mat (xarr V c) (warr V c) : FVec Ideal S200000x32 .f32) :=
  (dat2 (F := Ideal) V c).arrAt_eq_of_cover 2 (mat (xarr V c) (warr V c) : FVec Ideal S200000x32 .f32) (fun t _ => flushed_eq V c t) cover

end Cert.KernelIdeal.Reg2

end
-- ==== Proof.Reg3.lean ====
/-
  Region 3: each of the twenty grid points adds the 1×N row to a block of 10000 rows and takes the maximum with
  zero; the blocks tile the rows, so the output array ends as that function of the two arrays the region finds.
-/
import proofs.«133488_j43207370998208_1_alg».proof.Proof.Gen.KernelIdeal.Frame
import proofs.«133488_j43207370998208_1_alg».proof.Proof.Fns
import proofs.«133488_j43207370998208_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Fns

/- The buffer contents the region is entered from: a parameter. -/
variable (V : (c : Dev nD) → (b : Ref sig .tc) → Buf (Elt Ideal) ((c : Thread nD τ).loc b))

/-- The region's two input arrays as it finds them, at their literal types. -/
abbrev aarr (c : Dev nD) : FVec Ideal S200000x32 .f32 := V c main_v56
abbrev barr (c : Dev nD) : FVec Ideal S1x32 .f32 := V c main_v57

/-- The offset of an access to a whole staging buffer: zero on both axes. -/
theorem origin_zero : (![0, 0] : Fin 2 → Nat) = fun _ => 0 := funext fun a => by fin_cases a <;> rfl

/-- The body's arithmetic at one entry of a block: the block's entry plus the row's entry in that column, then the
    maximum with zero. -/
theorem pay_apply (x0 : Vec Ideal S10000x32 .f32) (x1 : Vec Ideal S1x32 .f32) (p : Fin 10000) (q : Fin 32) :
    k3_pay1 x0 x1 (ix2 p q) = max (x0 (ix2 p q) + x1 (ix2 0 q)) (Ideal.ofBits .f32 0x00000000#32) := by
  unfold k3_pay1
  simp only [shapeCast_self]
  rw [maximumf_apply, addf_apply, broadcast_apply, broadcastTo_1b_ab_apply]
  rfl

/-- The block indices over the twenty grid points: at point t the first input and the output are at block (t, 0),
    the row at block (0, 0). -/
theorem index_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Block t of the first input: its entry (p, q) is entry (10000 t + p, q) of the array. -/
theorem ablk_apply (c : Dev nD) (t : Fin cfg3.N) (p : Fin 10000) (q : Fin 32) (k : S200000x32.Idx)
    (hk0 : (k 0).val = t.val * 10000 + p.val) (hk1 : (k 1).val = q.val) :
    (iblk3 V c 0 t : Vec Ideal S10000x32 .f32) (ix2 p q) = aarr V c k := by
  obtain ⟨e0, e1, -⟩ := index_facts t
  unfold iblk3
  rw [View.read_apply]
  show V c main_v56 _ = V c main_v56 _
  congr 1
  funext a
  apply Fin.ext
  match a with
  | ⟨0, _⟩ => show win3_0.index t (0 : Fin 2) * 10000 + 1 * p.val = (k 0).val; rw [e0, hk0]; omega
  | ⟨1, _⟩ => show win3_0.index t (1 : Fin 2) * 32 + 1 * q.val = (k 1).val; rw [e1, hk1]; omega

/-- The row's one block, the same at every point: its entry (0, q) is the row's entry (0, q). -/
theorem bblk_apply (c : Dev nD) (t : Fin cfg3.N) (q : Fin 32) :
    (iblk3 V c 1 t : Vec Ideal S1x32 .f32) (ix2 0 q) = barr V c (ix2 0 q) := by
  obtain ⟨-, -, e0, e1, -⟩ := index_facts t
  unfold iblk3
  rw [View.read_apply]
  show V c main_v57 _ = V c main_v57 _
  congr 1
  funext a
  apply Fin.ext
  match a with
  | ⟨0, _⟩ => show win3_1.index t (0 : Fin 2) * 1 + 1 * 0 = 0; rw [e0]
  | ⟨1, _⟩ => show win3_1.index t (1 : Fin 2) * 32 + 1 * q.val = q.val; rw [e1]; omega

/-- What the body leaves at entry y of the output's buffer at point t is the function of the two arrays at the
    array index k that y stands for: row 10000 t + y₀, column y₁. -/
theorem point_eq (c : Dev nD) (t : Fin cfg3.N) (y : S10000x32.Idx) (k : S200000x32.Idx)
    (hk0 : (k 0).val = t.val * 10000 + (y 0).val) (hk1 : (k 1).val = (y 1).val) :
    k3_pay1 (iblk3 V c 0 t) (iblk3 V c 1 t) y = biasRelu (aarr V c) (barr V c) k := by
  obtain ⟨p, q, rfl⟩ : ∃ (p : Fin 10000) (q : Fin 32), y = ix2 p q := ⟨y 0, y 1, eq_ix2 y⟩
  obtain ⟨r, s, rfl⟩ : ∃ (r : Fin 200000) (s : Fin 32), k = ix2 r s := ⟨k 0, k 1, eq_ix2 k⟩
  obtain rfl : s = q := Fin.ext hk1
  refine (pay_apply (iblk3 V c 0 t) (iblk3 V c 1 t) p s).trans ?_
  rw [biasRelu_apply]
  exact congrArg₂ (fun u v => max (u + v) zero32) (ablk_apply V c t p s (ix2 r s) hk0 rfl) (bblk_apply V c t s)

/-- What point t writes back is block t of the function of the two arrays. -/
theorem flushed_eq (c : Dev nD) (t : Fin cfg3.N) :
    (dat3 (F := Ideal) V c).flushed 2 t
      = ((cfg3.win 2).blk t).view.read (Elt Ideal) (biasRelu (aarr V c) (barr V c) : FVec Ideal S200000x32 .f32) := by
  show (cfg3.win 2).cut (grid3.coords t) ((dat3 (F := Ideal) V c).after 2 t) = _
  rw [after3_2]
  unfold out3_2
  rw [View.canon_unit_zero origin_zero]
  simp only [View.ld_unit_zero (S := S10000x32) origin_zero, View.ld_unit_zero (S := S1x32) origin_zero]
  obtain ⟨-, -, -, -, e0, e1⟩ := index_facts t
  funext j
  show k3_pay1 (iblk3 V c 0 t) (iblk3 V c 1 t) j
    = biasRelu (aarr V c) (barr V c) (((cfg3.win 2).blk t).view.emb j)
  refine point_eq V c t j _ ?_ ?_
  · show win3_2.index t (0 : Fin 2) * 10000 + 1 * (j 0).val = t.val * 10000 + (j 0).val
    rw [e0]; omega
  · show win3_2.index t (1 : Fin 2) * 32 + 1 * (j 1).val = (j 1).val
    rw [e1]; omega

/-- An index of the array is in point t's block iff each coordinate is in the block's range on its axis. -/
theorem mem_blk (t : Fin cfg3.N) (i : S200000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v58).slice (win3_2.rect t)).set ↔ _
  rw [View.set_slice_whole, Rect.mem_set_unit]
  exact Iff.rfl

/-- The twenty blocks of 10000 rows tile the 200000 rows: row r is in the block of point r / 10000. -/
theorem cover (i : S200000x32.Idx) :
    ∃ t : Fin cfg3.N, (cfg3.win 2).flush t = true ∧ i ∈ ((cfg3.win 2).blk t).view.set := by
  have hi0 : (i 0).val < 200000 := (i 0).isLt
  have hi1 : (i 1).val < 32 := (i 1).isLt
  have ht : (i 0).val / 10000 < cfg3.N := by
    show (i 0).val / 10000 < 20
    omega
  obtain ⟨-, -, -, -, e0, e1⟩ := index_facts ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win3_2.index ⟨(i 0).val / 10000, ht⟩ (1 : Fin 2) * 32 ≤ (i 1).val
      ∧ (i 1).val < win3_2.index ⟨(i 0).val / 10000, ht⟩ (1 : Fin 2) * 32 + 32
    rw [e1]
    omega

/-- After the region its output array is the row bias added to every row, then the maximum with zero. -/
theorem arr (c : Dev nD) : (dat3 (F := Ideal) V c).arrAt 2 cfg3.N = (biasRelu (aarr V c) (barr V c) : FVec Ideal S200000x32 .f32) :=
  (dat3 (F := Ideal) V c).arrAt_eq_of_cover 2 (biasRelu (aarr V c) (barr V c) : FVec Ideal S200000x32 .f32)
    (fun t _ => flushed_eq V c t) cover

end Cert.KernelIdeal.Reg3

end
-- ==== Proof.Reg4.lean ====
/-
  Region 4: one grid point; every window is its whole array. The body multiplies the 1024×32 array by the 32×2
  array, adds the 1×2 row, and subtracts from each logit the row's maximum plus the logarithm of the sum of the
  exponentials of the logits less that maximum.
-/
import proofs.«133488_j43207370998208_1_alg».proof.Proof.Gen.KernelIdeal.Frame
import proofs.«133488_j43207370998208_1_alg».proof.Proof.Fns
import proofs.«133488_j43207370998208_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Fns

/-! ## The body's arithmetic -/

/-- The bit pattern of −∞ is the least extended real. -/
theorem ofBits_negInf : Ideal.ofBits .f32 0xFF800000#32 = ⊥ := by simp [Ideal.ofBits, Ideal.ieee]

/-- The fold of the maximum over a two-element axis. -/
theorem fold_max_two (b : EReal) (f : Fin 2 → EReal) :
    (Finset.univ : Finset (Fin 2)).fold max b f = max (f 0) (max (f 1) b) := by
  rw [show (Finset.univ : Finset (Fin 2)) = {0, 1} from by decide]
  rw [Finset.fold_insert (by decide), Finset.fold_singleton]

/-- The index of row p with column k put back on the reduced axis. -/
theorem lift_col (h : S1024x2.Reduces [1] S1024) (p : Fin 1024) (k : Fin 2) : h.lift (ix1 p) k = ix2 p k := by
  funext c; apply Fin.ext
  match c with
  | ⟨0, _⟩ => rfl
  | ⟨1, _⟩ => rfl

/-- The maximum along the second axis, from −∞, at row p: the greater of the row's two entries. -/
theorem rowMax_read (l : FVec Ideal S1024x2 .f32) (h : S1024x2.Reduces [1] S1024) (hφ : FKind.Formats .f32)
    (hacc : (0xFF800000#32 : BitVec 32) = FKind.maximumf.neutral .f32 hφ) (p : Fin 1024) :
    multiReduction (F := Ideal) .maximumf [1] S1024 l 0xFF800000#32 h hφ hacc (ix1 p) = rowMax l p := by
  rw [Ideal.multiReduction_maximumf_single]
  refine (fold_max_two _ _).trans ?_
  show max (l (h.lift (ix1 p) (0 : Fin 2))) (max (l (h.lift (ix1 p) (1 : Fin 2))) (Ideal.ofBits .f32 0xFF800000#32)) = _
  rw [lift_col, lift_col, ofBits_negInf, max_bot_right]
  rfl

/-- The sum along the second axis at row p: the sum of the row's two entries. -/
theorem rowSum_read (e : FVec Ideal S1024x2 .f32) (h : S1024x2.Reduces [1] S1024) (hφ : FKind.Formats .f32)
    (hacc : (0x00000000#32 : BitVec 32) = FKind.add.neutral .f32 hφ) (p : Fin 1024) :
    multiReduction (F := Ideal) .add [1] S1024 e 0x00000000#32 h hφ hacc (ix1 p) = e (ix2 p 0) + e (ix2 p 1) := by
  rw [Ideal.multiReduction_add_single]
  refine (Fin.sum_univ_two _).trans ?_
  rw [lift_col, lift_col]

/-- A vector of 1024 entries viewed as a 1024×1 column. -/
theorem cast_col {α : Type} (x : S1024.Idx → α) (h : S1024.ShapeCasts S1024x1) (p : Fin 1024) (z : Fin 1) :
    shapeCast S1024x1 x h (ix2 p z) = x (ix1 p) := by
  refine shapeCast_apply x h (ix2 p z) (ix1 p) ?_
  rw [Shape.rowMajor_val_one, Shape.rowMajor_val_two]
  show p.val = p.val * 1 + z.val
  have := z.isLt
  omega

/-- A 1024×1 column broadcast along the second axis. -/
theorem bcast_col {α : Type} (x : S1024x1.Idx → α) (h : S1024x1.Broadcasts S1024x2) (p : Fin 1024) (q : Fin 2) :
    broadcastTo S1024x2 x h (ix2 p q) = x (ix2 p 0) := by
  refine broadcastTo_apply x h (ix2 p q) (ix2 p 0) fun a => ?_
  match a with
  | ⟨0, _⟩ => rfl
  | ⟨1, _⟩ => rfl

/-- The exponential and the logarithm of a vector, entry by entry. -/
theorem exp_read {s : Shape} (a : FVec Ideal s .f32) (i : s.Idx) : exp a i = Ideal.exp (a i) := rfl
theorem log_read {s : Shape} (a : FVec Ideal s .f32) (i : s.Idx) : log a i = Ideal.log (a i) := rfl

/-- The logits as the body computes them: the product into a zero accumulator plus the broadcast row. -/
theorem logits_eq (v0 : Vec Ideal S1024x32 .f32) (v3 : Vec Ideal S32x2 .f32) (v6 : Vec Ideal S1x2 .f32) :
    (addf (matmul dot_S1024x32_S32x2_S1024x2_1_0_0_1_n_n none
            (truncf .bf16 (shapeCast S1024x32 v0 shapeCasts_S1024x32_S1024x32) bitsLt_bf16_f32)
            (truncf .bf16 v3 bitsLt_bf16_f32) (constant (F := Ideal) S1024x2 .f32 0x00000000#32))
         (broadcastTo S1024x2 (shapeCast S1x2 v6 shapeCasts_S1x2_S1x2) broadcasts_S1x2_S1024x2) : FVec Ideal S1024x2 .f32)
      = addRow (mat v0 v3) v6 := by
  funext j
  obtain ⟨p, q, rfl⟩ : ∃ (p : Fin 1024) (q : Fin 2), j = ix2 p q := ⟨j 0, j 1, eq_ix2 j⟩
  rw [addf_apply, addRow_apply, mat_apply, shapeCast_self, shapeCast_self, broadcastTo_1b_ab_apply]
  congr 1
  exact PlainDot.matmul_zero_plain _ ⟨rfl, rfl, rfl, rfl, rfl, rfl⟩ none _ _ p q

/-- From the logits on, the body computes the logarithm of the softmax in the grouping
    l − (max + log Σ exp (l − max)). -/
theorem lsm_read (l : FVec Ideal S1024x2 .f32) (hr : S1024x2.Reduces [1] S1024) (hφ : FKind.Formats .f32)
    (hmax : (0xFF800000#32 : BitVec 32) = FKind.maximumf.neutral .f32 hφ)
    (hadd : (0x00000000#32 : BitVec 32) = FKind.add.neutral .f32 hφ)
    (hsc : S1024.ShapeCasts S1024x1) (hb : S1024x1.Broadcasts S1024x2) :
    subf l (broadcastTo S1024x2
        (addf (shapeCast S1024x1 (multiReduction (F := Ideal) .maximumf [1] S1024 l 0xFF800000#32 hr hφ hmax) hsc)
          (log (shapeCast S1024x1
            (multiReduction (F := Ideal) .add [1] S1024
              (exp (subf l (broadcastTo S1024x2
                (shapeCast S1024x1 (multiReduction (F := Ideal) .maximumf [1] S1024 l 0xFF800000#32 hr hφ hmax) hsc) hb)))
              0x00000000#32 hr hφ hadd) hsc))) hb)
      = lsmOuter l := by
  funext j
  obtain ⟨p, q, rfl⟩ : ∃ (p : Fin 1024) (q : Fin 2), j = ix2 p q := ⟨j 0, j 1, eq_ix2 j⟩
  rw [subf_apply, bcast_col, addf_apply, log_read, cast_col, cast_col, rowMax_read, rowSum_read,
    exp_read, exp_read, subf_apply, subf_apply, bcast_col, bcast_col, cast_col, rowMax_read]
  rfl

/-- THE BODY'S ARITHMETIC: the value stored is the logarithm of the softmax of the product plus the row bias. -/
theorem pay_eq (v0 : Vec Ideal S1024x32 .f32) (v3 : Vec Ideal S32x2 .f32) (v6 : Vec Ideal S1x2 .f32) :
    k4_pay1 v0 v3 v6 = lsmOuter (addRow (mat v0 v3) v6) := by
  unfold k4_pay1
  simp only [logits_eq v0 v3 v6]
  exact lsm_read _ _ _ _ _ _ _

/- The buffer contents the region is entered from: a parameter. -/
variable (V : (c : Dev nD) → (b : Ref sig .tc) → Buf (Elt Ideal) ((c : Thread nD τ).loc b))

/-- The region's three input arrays as it finds them, at their literal types. -/
abbrev garr (c : Dev nD) : FVec Ideal S1024x32 .f32 := V c main_v70
abbrev warr (c : Dev nD) : FVec Ideal S32x2 .f32 := V c main_arg7
abbrev barr (c : Dev nD) : FVec Ideal S1x2 .f32 := V c main_v71

/-! ## From the one block to the array -/

theorem zero_offsets : (![0, 0] : Fin 2 → Nat) = fun _ => 0 := funext fun a => by fin_cases a <;> rfl

/-- The windows' index maps on the one-point grid: every window's block index is zero on both axes. -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Window 0's block is its whole array. -/
theorem block0_eq (c : Dev nD) (t : Fin cfg4.N) : (iblk4 (F := Ideal) V c 0 t : FVec Ideal S1024x32 .f32) = garr V c := by
  obtain ⟨e00, e01, -⟩ := index_zero t
  funext y
  show V c main_v70 (((cfg4.win 0).blk t).view.emb y) = V c main_v70 y
  refine congrArg (V c main_v70) (funext fun a => Fin.ext ?_)
  match a with
  | ⟨0, _⟩ => show win4_0.index t (0 : Fin 2) * 1024 + 1 * (y 0).val = (y 0).val; omega
  | ⟨1, _⟩ => show win4_0.index t (1 : Fin 2) * 32 + 1 * (y 1).val = (y 1).val; omega

/-- Window 1's block is its whole array. -/
theorem block1_eq (c : Dev nD) (t : Fin cfg4.N) : (iblk4 (F := Ideal) V c 1 t : FVec Ideal S32x2 .f32) = warr V c := by
  obtain ⟨-, -, e10, e11, -⟩ := index_zero t
  funext y
  show V c main_arg7 (((cfg4.win 1).blk t).view.emb y) = V c main_arg7 y
  refine congrArg (V c main_arg7) (funext fun a => Fin.ext ?_)
  match a with
  | ⟨0, _⟩ => show win4_1.index t (0 : Fin 2) * 32 + 1 * (y 0).val = (y 0).val; omega
  | ⟨1, _⟩ => show win4_1.index t (1 : Fin 2) * 2 + 1 * (y 1).val = (y 1).val; omega

/-- Window 2's block is its whole array. -/
theorem block2_eq (c : Dev nD) (t : Fin cfg4.N) : (iblk4 (F := Ideal) V c 2 t : FVec Ideal S1x2 .f32) = barr V c := by
  obtain ⟨-, -, -, -, e20, e21, -⟩ := index_zero t
  funext y
  show V c main_v71 (((cfg4.win 2).blk t).view.emb y) = V c main_v71 y
  refine congrArg (V c main_v71) (funext fun a => Fin.ext ?_)
  match a with
  | ⟨0, _⟩ => show win4_2.index t (0 : Fin 2) * 1 + 1 * (y 0).val = (y 0).val; omega
  | ⟨1, _⟩ => show win4_2.index t (1 : Fin 2) * 2 + 1 * (y 1).val = (y 1).val; omega

/-- WHAT THE POINT WRITES BACK is the whole of the logarithm of the softmax of the logits. -/
theorem flushed_eq (c : Dev nD) (t : Fin cfg4.N) :
    (dat4 (F := Ideal) V c).flushed 3 t
      = ((cfg4.win 3).blk t).view.read (Elt Ideal)
          (lsmOuter (addRow (mat (garr V c) (warr V c)) (barr V c)) : FVec Ideal S1024x2 .f32) := by
  show (cfg4.win 3).cut (grid4.coords t) ((dat4 (F := Ideal) V c).after 3 t) = _
  rw [after4_3]
  unfold out4_3
  rw [View.canon_unit_zero zero_offsets]
  simp only [View.ld_unit_zero (S := S1024x32) zero_offsets, View.ld_unit_zero (S := S32x2) zero_offsets,
    View.ld_unit_zero (S := S1x2) zero_offsets]
  rw [pay_eq, block0_eq, block1_eq, block2_eq]
  obtain ⟨-, -, -, -, -, -, e30, e31⟩ := index_zero t
  funext j
  show lsmOuter (addRow (mat (garr V c) (warr V c)) (barr V c)) j
    = lsmOuter (addRow (mat (garr V c) (warr V c)) (barr V c)) (((cfg4.win 3).blk t).view.emb j)
  refine congrArg _ (funext fun a => Fin.ext ?_)
  match a with
  | ⟨0, _⟩ => show (j 0).val = win4_3.index t (0 : Fin 2) * 1024 + 1 * (j 0).val; omega
  | ⟨1, _⟩ => show (j 1).val = win4_3.index t (1 : Fin 2) * 2 + 1 * (j 1).val; omega

/-- An index of the output array is in the point's block iff each coordinate is in the block's range on its axis. -/
theorem mem_block (t : Fin cfg4.N) (i : S1024x2.Idx) :
    i ∈ ((cfg4.win 3).blk t).view.set ↔ ∀ a : Fin 2, win4_3.index t a * S1024x2.size a ≤ (i a).val
      ∧ (i a).val < win4_3.index t a * S1024x2.size a + S1024x2.size a := by
  show i ∈ ((View.whole main_v72).slice (win4_3.rect t)).set ↔ _
  rw [View.set_slice_whole, Rect.mem_set_unit]
  exact Iff.rfl

/-- The one point's block holds every index of the output array. -/
theorem covered (i : S1024x2.Idx) :
    ∃ t : Fin cfg4.N, (cfg4.win 3).flush t = true ∧ i ∈ ((cfg4.win 3).blk t).view.set := by
  obtain ⟨-, -, -, -, -, -, e30, e31⟩ := index_zero t4_0
  refine ⟨t4_0, flush4_3 t4_0, ?_⟩
  rw [mem_block]
  intro a
  match a with
  | ⟨0, _⟩ =>
    show win4_3.index t4_0 (0 : Fin 2) * 1024 ≤ (i 0).val ∧ (i 0).val < win4_3.index t4_0 (0 : Fin 2) * 1024 + 1024
    have hi : (i 0).val < 1024 := (i 0).isLt
    omega
  | ⟨1, _⟩ =>
    show win4_3.index t4_0 (1 : Fin 2) * 2 ≤ (i 1).val ∧ (i 1).val < win4_3.index t4_0 (1 : Fin 2) * 2 + 2
    have hi : (i 1).val < 2 := (i 1).isLt
    omega

/-- After the region its output array is the logarithm of the softmax, in the grouping l − (max + log Σ exp (l − max)),
    of the logits: the product plus the row bias. -/
theorem arr (c : Dev nD) : (dat4 (F := Ideal) V c).arrAt 3 cfg4.N
    = (lsmOuter (addRow (mat (garr V c) (warr V c)) (barr V c)) : FVec Ideal S1024x2 .f32) :=
  (dat4 (F := Ideal) V c).arrAt_eq_of_cover 3 _ (fun t _ => flushed_eq V c t) covered

end Cert.KernelIdeal.Reg4

end
-- ==== Proof.RefRead.lean ====
/-
  The reference program's stages, read as the whole-array functions the kernel's regions are stated with: its three
  matrix products, its two bias-then-maximum-with-zero stages, its logits, and its logarithm of a softmax (grouped
  as (l − max) − log Σ exp (l − max)).
-/
import proofs.«133488_j43207370998208_1_alg».proof.Proof.Gen.ReferenceIdeal.Read
import proofs.«133488_j43207370998208_1_alg».proof.Proof.Fns
import proofs.«133488_j43207370998208_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.RefRead

open Idealize.ShloMosaic Idealize.ShloMosaic.ValueIdx
open Cert.ReferenceIdeal Cert.ReferenceIdeal.Read Cert.Fns

variable (x0 : FVec Ideal S200000x3 .f32) (x1 : IVec S2x6400000 32) (x2 : IVec S200000 32) (x3 : FVec Ideal S3x16 .f32)
  (x4 : FVec Ideal S16 .f32) (x5 : FVec Ideal S16x32 .f32) (x6 : FVec Ideal S32 .f32) (x7 : FVec Ideal S32x2 .f32) (x8 : FVec Ideal S2 .f32)

/-- The first feature transform is the product x · W1: at (p, q) the host's product reads the left operand at
    (p, κ) and the right at (κ, q). -/
theorem v27_eq : val_main_v27 (F := Ideal) x0 x3 = mat x0 x3 := by
  funext i
  obtain ⟨p, q, rfl⟩ : ∃ (p : Fin 200000) (q : Fin 16), i = ix2 p q := ⟨i 0, i 1, eq_ix2 i⟩
  rw [val_main_v27_apply, mat_apply]
  refine Finset.sum_congr rfl fun k _ => ?_
  have el : lidx_main_v27 (ix2 p q) k = ix2 p k := funext fun a => by match a with | ⟨0, _⟩ => rfl | ⟨1, _⟩ => rfl
  have er : ridx_main_v27 (ix2 p q) k = ix2 k q := funext fun a => by match a with | ⟨0, _⟩ => rfl | ⟨1, _⟩ => rfl
  rw [el, er]

/-- The first layer's output: the aggregate plus the bias row, then the maximum with zero. The bias is broadcast
    first to one row and then down the rows, so at (p, q) it is read at q. -/
theorem v44_eq : val_main_v44 (F := Ideal) x0 x1 x3 x4 = biasRelu (val_main_v40 (F := Ideal) x0 x1 x3) (rowOf x4) := by
  funext i
  obtain ⟨p, q, rfl⟩ : ∃ (p : Fin 200000) (q : Fin 16), i = ix2 p q := ⟨i 0, i 1, eq_ix2 i⟩
  rw [val_main_v44_apply, val_main_v43_apply, val_main_v42_apply, val_main_v41_apply, val_main_call0_v0_apply,
    val_main_call0_cst_apply, biasRelu_apply, rowOf_apply]
  have e : idx_main_v41 (idx_main_v42 (ix2 p q)) = ix1 q := funext fun a => by match a with | ⟨0, _⟩ => rfl
  rw [e]
  rfl

/-- The second feature transform is the product h · W2. -/
theorem v72_eq : val_main_v72 (F := Ideal) x0 x1 x3 x4 x5 = mat (val_main_v44 (F := Ideal) x0 x1 x3 x4) x5 := by
  funext i
  obtain ⟨p, q, rfl⟩ : ∃ (p : Fin 200000) (q : Fin 32), i = ix2 p q := ⟨i 0, i 1, eq_ix2 i⟩
  rw [val_main_v72_apply, mat_apply]
  refine Finset.sum_congr rfl fun k _ => ?_
  have el : lidx_main_v72 (ix2 p q) k = ix2 p k := funext fun a => by match a with | ⟨0, _⟩ => rfl | ⟨1, _⟩ => rfl
  have er : ridx_main_v72 (ix2 p q) k = ix2 k q := funext fun a => by match a with | ⟨0, _⟩ => rfl | ⟨1, _⟩ => rfl
  rw [el, er]

/-- The second layer's output. -/
theorem v89_eq : val_main_v89 (F := Ideal) x0 x1 x3 x4 x5 x6 = biasRelu (val_main_v85 (F := Ideal) x0 x1 x3 x4 x5) (rowOf x6) := by
  funext i
  obtain ⟨p, q, rfl⟩ : ∃ (p : Fin 200000) (q : Fin 32), i = ix2 p q := ⟨i 0, i 1, eq_ix2 i⟩
  rw [val_main_v89_apply, val_main_v88_apply, val_main_v87_apply, val_main_v86_apply, val_main_call1_v0_apply,
    val_main_call1_cst_apply, biasRelu_apply, rowOf_apply]
  have e : idx_main_v86 (idx_main_v87 (ix2 p q)) = ix1 q := funext fun a => by match a with | ⟨0, _⟩ => rfl
  rw [e]
  rfl

/-- The logits: the pooled embeddings times Wfc, plus the bias row. -/
theorem v105_eq : val_main_v105 (F := Ideal) x0 x1 x2 x3 x4 x5 x6 x7 x8
    = addRow (mat (val_main_v101 (F := Ideal) x0 x1 x2 x3 x4 x5 x6) x7) (rowOf x8) := by
  funext i
  obtain ⟨p, q, rfl⟩ : ∃ (p : Fin 1024) (q : Fin 2), i = ix2 p q := ⟨i 0, i 1, eq_ix2 i⟩
  rw [val_main_v105_apply, val_main_v104_apply, val_main_v103_apply, val_main_v102_apply, addRow_apply, rowOf_apply, mat_apply]
  have e : idx_main_v103 (idx_main_v104 (ix2 p q)) = ix1 q := funext fun a => by match a with | ⟨0, _⟩ => rfl
  rw [e]
  refine congrArg (· + x8 (ix1 q)) (Finset.sum_congr rfl fun k _ => ?_)
  have el : lidx_main_v102 (ix2 p q) k = ix2 p k := funext fun a => by match a with | ⟨0, _⟩ => rfl | ⟨1, _⟩ => rfl
  have er : ridx_main_v102 (ix2 p q) k = ix2 k q := funext fun a => by match a with | ⟨0, _⟩ => rfl | ⟨1, _⟩ => rfl
  rw [el, er]

/-- A fold of a commutative, associative operation over the two coordinates of an axis of extent 2. -/
private theorem fold_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = {0, 1} from by decide, Finset.fold_insert (by decide), Finset.fold_singleton]

/-- The f32 pattern of −∞ is the least extended real. -/
private theorem ofBits_neg_inf : Ideal.ofBits .f32 0xFF800000#32 = (⊥ : EReal) := by simp [Ideal.ofBits, Ideal.ieee]

/-- The reduction by maximum from −∞ along the second axis is, at p, the greater of the row's two entries. -/
private theorem call2_v0_row (p : Fin 1024) :
    val_main_call2_v0 (F := Ideal) x0 x1 x2 x3 x4 x5 x6 x7 x8 (ix1 p) = rowMax (val_main_v105 (F := Ideal) x0 x1 x2 x3 x4 x5 x6 x7 x8) p := by
  unfold val_main_call2_v0 rowMax
  generalize val_main_v105 (F := Ideal) x0 x1 x2 x3 x4 x5 x6 x7 x8 = y
  have hR : S1024x2.Reduces [1] S1024 := by decide
  refine (Host.reduce_eq_fold_single (a := 1) (FloatOps.maximumf (F := Ideal) (φ := .f32)) y _ Gen.reducesTo_S1024x2_S1024_d1 hR Gen.h_S_ (ix1 p)).trans ?_
  refine (fold_fin2 _ _ _).trans ?_
  have e0 : hR.lift (ix1 p) (0 : Fin 2) = ix2 p 0 := funext fun a => Fin.ext (by match a with | ⟨0, _⟩ => rfl | ⟨1, _⟩ => rfl)
  have e1 : hR.lift (ix1 p) (1 : Fin 2) = ix2 p 1 := funext fun a => Fin.ext (by match a with | ⟨0, _⟩ => rfl | ⟨1, _⟩ => rfl)
  show max (y (hR.lift (ix1 p) (0 : Fin 2))) (max (y (hR.lift (ix1 p) (1 : Fin 2))) (Ideal.ofBits .f32 0xFF800000#32)) = _
  rw [e0, e1, ofBits_neg_inf, max_bot_right]

/-- The row's maximum joined once more with −∞ is the row's maximum. -/
private theorem call2_v2_row (p : Fin 1024) :
    val_main_call2_v2 (F := Ideal) x0 x1 x2 x3 x4 x5 x6 x7 x8 (ix1 p) = rowMax (val_main_v105 (F := Ideal) x0 x1 x2 x3 x4 x5 x6 x7 x8) p := by
  rw [val_main_call2_v2_apply, val_main_call2_v1_apply, val_main_call2_cst_0_apply, call2_v0_row]
  show max (Ideal.ofBits .f32 0xFF800000#32) _ = _
  rw [ofBits_neg_inf, max_bot_left]

/-- The shifted logits: each entry less its row's maximum. -/
private theorem call2_v5_at (p : Fin 1024) (q : Fin 2) :
    val_main_call2_v5 (F := Ideal) x0 x1 x2 x3 x4 x5 x6 x7 x8 (ix2 p q)
      = val_main_v105 (F := Ideal) x0 x1 x2 x3 x4 x5 x6 x7 x8 (ix2 p q) - rowMax (val_main_v105 (F := Ideal) x0 x1 x2 x3 x4 x5 x6 x7 x8) p := by
  rw [val_main_call2_v5_apply, val_main_call2_v4_apply, val_main_call2_v3_apply]
  have e : idx_main_call2_v3 (idx_main_call2_v4 (ix2 p q)) = ix1 p := funext fun a => by match a with | ⟨0, _⟩ => rfl
  rw [e, call2_v2_row]
  rfl

/-- The sum from zero along the second axis of the exponentials of the shifted logits is the row's sum of exponentials. -/
private theorem call2_v7_row (p : Fin 1024) :
    val_main_call2_v7 (F := Ideal) x0 x1 x2 x3 x4 x5 x6 x7 x8 (ix1 p) = rowSumExp (val_main_v105 (F := Ideal) x0 x1 x2 x3 x4 x5 x6 x7 x8) p := by
  rw [val_main_call2_v7_apply, Fin.sum_univ_two, val_main_call2_cst_1_apply, val_main_call2_v6_apply, val_main_call2_v6_apply]
  have e0 : idx_main_call2_v7 (ix1 p) (0 : Fin 2) = ix2 p 0 := funext fun a => by match a with | ⟨0, _⟩ => rfl | ⟨1, _⟩ => rfl
  have e1 : idx_main_call2_v7 (ix1 p) (1 : Fin 2) = ix2 p 1 := funext fun a => by match a with | ⟨0, _⟩ => rfl | ⟨1, _⟩ => rfl
  rw [e0, e1, call2_v5_at, call2_v5_at]
  show Ideal.ofBits .f32 0x00000000#32 + _ = _
  rw [Ideal.ofBits_zero_f32, zero_add]
  generalize val_main_v105 (F := Ideal) x0 x1 x2 x3 x4 x5 x6 x7 x8 = y
  rfl

/-- The result: the logarithm of the softmax of the logits along the second axis. -/
theorem v106_eq : val_main_v106 (F := Ideal) x0 x1 x2 x3 x4 x5 x6 x7 x8
    = lsmInner (val_main_v105 (F := Ideal) x0 x1 x2 x3 x4 x5 x6 x7 x8) := by
  funext i
  obtain ⟨p, q, rfl⟩ : ∃ (p : Fin 1024) (q : Fin 2), i = ix2 p q := ⟨i 0, i 1, eq_ix2 i⟩
  rw [val_main_v106_apply, val_main_call2_v10_apply, val_main_call2_v9_apply, val_main_call2_v8_apply, call2_v5_at]
  have e : idx_main_call2_v8 (idx_main_call2_v10 (ix2 p q)) = ix1 p := funext fun a => by match a with | ⟨0, _⟩ => rfl
  rw [e, call2_v7_row]
  generalize val_main_v105 (F := Ideal) x0 x1 x2 x3 x4 x5 x6 x7 x8 = y
  rfl

end Cert.ReferenceIdeal.RefRead

end
-- ==== Proof.Stage.lean ====
/-
  The kernel program's buffers, boundary by boundary, hold the reference program's stages of the same arguments:
  the edge lists and the normalisation after the first host stretch; the two feature transforms, the two
  aggregations and the two bias-then-maximum-with-zero layers; the pooled embeddings; and at the end the logarithm of
  the softmax of the reference's logits in the kernel's grouping, l − (max + log Σ exp (l − max)).
-/
import proofs.«133488_j43207370998208_1_alg».proof.Proof.Gen.KernelIdeal.Frame
import proofs.«133488_j43207370998208_1_alg».proof.Proof.Gen.ReferenceIdeal.Read
import proofs.«133488_j43207370998208_1_alg».proof.Proof.Fns
import proofs.«133488_j43207370998208_1_alg».proof.Proof.Reg0
import proofs.«133488_j43207370998208_1_alg».proof.Proof.Reg1
import proofs.«133488_j43207370998208_1_alg».proof.Proof.Reg2
import proofs.«133488_j43207370998208_1_alg».proof.Proof.Reg3
import proofs.«133488_j43207370998208_1_alg».proof.Proof.Reg4
import proofs.«133488_j43207370998208_1_alg».proof.Proof.RefRead
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.Fns

variable (m : (ℓ : Loc nD τ sig) → Buf (Elt Ideal) ℓ) (ρ : Dev nD → PrngReg)

/-! ## The argument arrays as launched, at their literal types -/

abbrev a0 (c : Dev nD) : FVec Ideal S200000x3 .f32 := m ((c : Thread nD τ).loc main_arg0)
abbrev a1 (c : Dev nD) : IVec S2x6400000 32 := m ((c : Thread nD τ).loc main_arg1)
abbrev a2 (c : Dev nD) : IVec S200000 32 := m ((c : Thread nD τ).loc main_arg2)
abbrev a3 (c : Dev nD) : FVec Ideal S3x16 .f32 := m ((c : Thread nD τ).loc main_arg3)
abbrev a4 (c : Dev nD) : FVec Ideal S16 .f32 := m ((c : Thread nD τ).loc main_arg4)
abbrev a5 (c : Dev nD) : FVec Ideal S16x32 .f32 := m ((c : Thread nD τ).loc main_arg5)
abbrev a6 (c : Dev nD) : FVec Ideal S32 .f32 := m ((c : Thread nD τ).loc main_arg6)
abbrev a7 (c : Dev nD) : FVec Ideal S32x2 .f32 := m ((c : Thread nD τ).loc main_arg7)
abbrev a8 (c : Dev nD) : FVec Ideal S2 .f32 := m ((c : Thread nD τ).loc main_arg8)

/-- A buffer that no operation of a host stretch writes keeps its contents across the stretch. -/
macro "host_keep" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Arguments read where a later segment needs them: nothing before has written them -/

theorem W1_arg0 (c : Dev nD) : W1 m ρ c (Proc.devRef .tc main_arg0) = a0 m c :=
  ((by host_keep hostOps0 : W1 m ρ c (Proc.devRef .tc main_arg0) = W0 m ρ c (Proc.devRef .tc main_arg0))).trans (rfl)
theorem W1_arg3 (c : Dev nD) : W1 m ρ c (Proc.devRef .tc main_arg3) = a3 m c :=
  ((by host_keep hostOps0 : W1 m ρ c (Proc.devRef .tc main_arg3) = W0 m ρ c (Proc.devRef .tc main_arg3))).trans (rfl)
theorem W2_arg4 (c : Dev nD) : W2 m ρ c (Proc.devRef .tc main_arg4) = a4 m c :=
  ((W2_of_ne m ρ c main_arg4 (by decide))).trans (((by host_keep hostOps0 : W1 m ρ c (Proc.devRef .tc main_arg4) = W0 m ρ c (Proc.devRef .tc main_arg4))).trans (rfl))
theorem W4_arg5 (c : Dev nD) : W4 m ρ c (Proc.devRef .tc main_arg5) = a5 m c :=
  ((W4_of_ne m ρ c main_arg5 (by decide))).trans (((by host_keep hostOps1 : W3 m ρ c (Proc.devRef .tc main_arg5) = W2 m ρ c (Proc.devRef .tc main_arg5))).trans (((W2_of_ne m ρ c main_arg5 (by decide))).trans (((by host_keep hostOps0 : W1 m ρ c (Proc.devRef .tc main_arg5) = W0 m ρ c (Proc.devRef .tc main_arg5))).trans (rfl))))
theorem W5_arg6 (c : Dev nD) : W5 m ρ c (Proc.devRef .tc main_arg6) = a6 m c :=
  ((W5_of_ne m ρ c main_arg6 (by decide))).trans (((W4_of_ne m ρ c main_arg6 (by decide))).trans (((by host_keep hostOps1 : W3 m ρ c (Proc.devRef .tc main_arg6) = W2 m ρ c (Proc.devRef .tc main_arg6))).trans (((W2_of_ne m ρ c main_arg6 (by decide))).trans (((by host_keep hostOps0 : W1 m ρ c (Proc.devRef .tc main_arg6) = W0 m ρ c (Proc.devRef .tc main_arg6))).trans (rfl)))))
theorem W7_arg2 (c : Dev nD) : W7 m ρ c (Proc.devRef .tc main_arg2) = a2 m c :=
  ((W7_of_ne m ρ c main_arg2 (by decide))).trans (((by host_keep hostOps3 : W6 m ρ c (Proc.devRef .tc main_arg2) = W5 m ρ c (Proc.devRef .tc main_arg2))).trans (((W5_of_ne m ρ c main_arg2 (by decide))).trans (((W4_of_ne m ρ c main_arg2 (by decide))).trans (((by host_keep hostOps1 : W3 m ρ c (Proc.devRef .tc main_arg2) = W2 m ρ c (Proc.devRef .tc main_arg2))).trans (((W2_of_ne m ρ c main_arg2 (by decide))).trans (((by host_keep hostOps0 : W1 m ρ c (Proc.devRef .tc main_arg2) = W0 m ρ c (Proc.devRef .tc main_arg2))).trans (rfl)))))))
theorem W7_arg8 (c : Dev nD) : W7 m ρ c (Proc.devRef .tc main_arg8) = a8 m c :=
  ((W7_of_ne m ρ c main_arg8 (by decide))).trans (((by host_keep hostOps3 : W6 m ρ c (Proc.devRef .tc main_arg8) = W5 m ρ c (Proc.devRef .tc main_arg8))).trans (((W5_of_ne m ρ c main_arg8 (by decide))).trans (((W4_of_ne m ρ c main_arg8 (by decide))).trans (((by host_keep hostOps1 : W3 m ρ c (Proc.devRef .tc main_arg8) = W2 m ρ c (Proc.devRef .tc main_arg8))).trans (((W2_of_ne m ρ c main_arg8 (by decide))).trans (((by host_keep hostOps0 : W1 m ρ c (Proc.devRef .tc main_arg8) = W0 m ρ c (Proc.devRef .tc main_arg8))).trans (rfl)))))))
theorem W8_arg7 (c : Dev nD) : W8 m ρ c (Proc.devRef .tc main_arg7) = a7 m c :=
  ((by host_keep hostOps4 : W8 m ρ c (Proc.devRef .tc main_arg7) = W7 m ρ c (Proc.devRef .tc main_arg7))).trans (((W7_of_ne m ρ c main_arg7 (by decide))).trans (((by host_keep hostOps3 : W6 m ρ c (Proc.devRef .tc main_arg7) = W5 m ρ c (Proc.devRef .tc main_arg7))).trans (((W5_of_ne m ρ c main_arg7 (by decide))).trans (((W4_of_ne m ρ c main_arg7 (by decide))).trans (((by host_keep hostOps1 : W3 m ρ c (Proc.devRef .tc main_arg7) = W2 m ρ c (Proc.devRef .tc main_arg7))).trans (((W2_of_ne m ρ c main_arg7 (by decide))).trans (((by host_keep hostOps0 : W1 m ρ c (Proc.devRef .tc main_arg7) = W0 m ρ c (Proc.devRef .tc main_arg7))).trans (rfl))))))))

/-! ## After the first host stretch: the two edge lists with the self loops appended, and the normalisation -/

set_option maxHeartbeats 4000000 in
theorem W1_v5 (c : Dev nD) : W1 m ρ c (Proc.devRef .tc main_v5) = Cert.ReferenceIdeal.Read.val_main_v3 (F := Ideal) (a1 m c) := by
  show StableHlo.after hostOps0 (W0 m ρ c) (Proc.devRef .tc main_v5) = _
  after_results_simp
  rfl

set_option maxHeartbeats 4000000 in
theorem W1_v6 (c : Dev nD) : W1 m ρ c (Proc.devRef .tc main_v6) = Cert.ReferenceIdeal.Read.val_main_v6 (F := Ideal) (a1 m c) := by
  show StableHlo.after hostOps0 (W0 m ρ c) (Proc.devRef .tc main_v6) = _
  after_results_simp
  rfl

set_option maxHeartbeats 4000000 in
theorem W1_v26 (c : Dev nD) : W1 m ρ c (Proc.devRef .tc main_v26) = Cert.ReferenceIdeal.Read.val_main_v26 (F := Ideal) (a1 m c) := by
  show StableHlo.after hostOps0 (W0 m ρ c) (Proc.devRef .tc main_v26) = _
  after_results_simp
  rfl

/-! ## Region 0: the first feature transform -/

theorem W2_v27 (c : Dev nD) : W2 m ρ c (Proc.devRef .tc main_v27) = Cert.ReferenceIdeal.Read.val_main_v27 (F := Ideal) (a0 m c) (a3 m c) :=
  ((W2_arr m ρ c 2).trans (Cert.KernelIdeal.Reg0.arr (V1 m ρ) c)).trans
    ((congrArg₂ mat (W1_arg0 m ρ c) (W1_arg3 m ρ c)).trans (Cert.ReferenceIdeal.RefRead.v27_eq (a0 m c) (a3 m c)).symm)

theorem W2_v5 (c : Dev nD) : W2 m ρ c (Proc.devRef .tc main_v5) = Cert.ReferenceIdeal.Read.val_main_v3 (F := Ideal) (a1 m c) :=
  ((W2_of_ne m ρ c main_v5 (by decide))).trans (W1_v5 m ρ c)
theorem W2_v6 (c : Dev nD) : W2 m ρ c (Proc.devRef .tc main_v6) = Cert.ReferenceIdeal.Read.val_main_v6 (F := Ideal) (a1 m c) :=
  ((W2_of_ne m ρ c main_v6 (by decide))).trans (W1_v6 m ρ c)
theorem W2_v26 (c : Dev nD) : W2 m ρ c (Proc.devRef .tc main_v26) = Cert.ReferenceIdeal.Read.val_main_v26 (F := Ideal) (a1 m c) :=
  ((W2_of_ne m ρ c main_v26 (by decide))).trans (W1_v26 m ρ c)

/-! ## The second host stretch: the first aggregation, and the bias as a row -/

set_option maxHeartbeats 4000000 in
theorem W3_v40 (c : Dev nD) : W3 m ρ c (Proc.devRef .tc main_v40) = Cert.ReferenceIdeal.Read.val_main_v40 (F := Ideal) (a0 m c) (a1 m c) (a3 m c) := by
  show StableHlo.after hostOps1 (W2 m ρ c) (Proc.devRef .tc main_v40) = _
  after_results_simp
  rw [W2_v27 m ρ c, W2_v5 m ρ c, W2_v6 m ρ c, W2_v26 m ρ c]
  rfl

set_option maxHeartbeats 4000000 in
theorem W3_v41 (c : Dev nD) : W3 m ρ c (Proc.devRef .tc main_v41) = (rowOf (a4 m c) : FVec Ideal S1x16 .f32) := by
  show StableHlo.after hostOps1 (W2 m ρ c) (Proc.devRef .tc main_v41) = _
  after_results_simp
  rw [W2_arg4 m ρ c]
  funext i
  refine (shapeCast_addUnit_apply ![16] (a4 m c) _ i).trans ?_
  show a4 m c (fun a => i a.succ) = a4 m c (ix1 (i 1))
  exact congrArg (a4 m c) (funext fun a => by match a with | ⟨0, _⟩ => rfl)

/-! ## Region 1: the first layer's output -/

theorem W4_v42 (c : Dev nD) : W4 m ρ c (Proc.devRef .tc main_v42) = Cert.ReferenceIdeal.Read.val_main_v44 (F := Ideal) (a0 m c) (a1 m c) (a3 m c) (a4 m c) :=
  ((W4_arr m ρ c 2).trans (Cert.KernelIdeal.Reg1.arr (V3 m ρ) c)).trans
    ((congrArg₂ biasRelu (W3_v40 m ρ c) (W3_v41 m ρ c)).trans (Cert.ReferenceIdeal.RefRead.v44_eq (a0 m c) (a1 m c) (a3 m c) (a4 m c)).symm)

/-! ## Region 2: the second feature transform -/

theorem W5_v43 (c : Dev nD) : W5 m ρ c (Proc.devRef .tc main_v43) = Cert.ReferenceIdeal.Read.val_main_v72 (F := Ideal) (a0 m c) (a1 m c) (a3 m c) (a4 m c) (a5 m c) :=
  ((W5_arr m ρ c 2).trans (Cert.KernelIdeal.Reg2.arr (V4 m ρ) c)).trans
    ((congrArg₂ mat (W4_v42 m ρ c) (W4_arg5 m ρ c)).trans (Cert.ReferenceIdeal.RefRead.v72_eq (a0 m c) (a1 m c) (a3 m c) (a4 m c) (a5 m c)).symm)

theorem W5_v5 (c : Dev nD) : W5 m ρ c (Proc.devRef .tc main_v5) = Cert.ReferenceIdeal.Read.val_main_v3 (F := Ideal) (a1 m c) :=
  ((W5_of_ne m ρ c main_v5 (by decide))).trans (((W4_of_ne m ρ c main_v5 (by decide))).trans (((by host_keep hostOps1 : W3 m ρ c (Proc.devRef .tc main_v5) = W2 m ρ c (Proc.devRef .tc main_v5))).trans (W2_v5 m ρ c)))
theorem W5_v6 (c : Dev nD) : W5 m ρ c (Proc.devRef .tc main_v6) = Cert.ReferenceIdeal.Read.val_main_v6 (F := Ideal) (a1 m c) :=
  ((W5_of_ne m ρ c main_v6 (by decide))).trans (((W4_of_ne m ρ c main_v6 (by decide))).trans (((by host_keep hostOps1 : W3 m ρ c (Proc.devRef .tc main_v6) = W2 m ρ c (Proc.devRef .tc main_v6))).trans (W2_v6 m ρ c)))
theorem W5_v26 (c : Dev nD) : W5 m ρ c (Proc.devRef .tc main_v26) = Cert.ReferenceIdeal.Read.val_main_v26 (F := Ideal) (a1 m c) :=
  ((W5_of_ne m ρ c main_v26 (by decide))).trans (((W4_of_ne m ρ c main_v26 (by decide))).trans (((by host_keep hostOps1 : W3 m ρ c (Proc.devRef .tc main_v26) = W2 m ρ c (Proc.devRef .tc main_v26))).trans (W2_v26 m ρ c)))

/-! ## The third host stretch: the second aggregation (the reference computes the lists and the normalisation a second
    time, by the same operations), and the bias as a row -/

set_option maxHeartbeats 4000000 in
theorem W6_v56 (c : Dev nD) : W6 m ρ c (Proc.devRef .tc main_v56) = Cert.ReferenceIdeal.Read.val_main_v85 (F := Ideal) (a0 m c) (a1 m c) (a3 m c) (a4 m c) (a5 m c) := by
  show StableHlo.after hostOps3 (W5 m ρ c) (Proc.devRef .tc main_v56) = _
  after_results_simp
  rw [W5_v43 m ρ c, W5_v5 m ρ c, W5_v6 m ρ c, W5_v26 m ρ c]
  rfl

set_option maxHeartbeats 4000000 in
theorem W6_v57 (c : Dev nD) : W6 m ρ c (Proc.devRef .tc main_v57) = (rowOf (a6 m c) : FVec Ideal S1x32 .f32) := by
  show StableHlo.after hostOps3 (W5 m ρ c) (Proc.devRef .tc main_v57) = _
  after_results_simp
  rw [W5_arg6 m ρ c]
  funext i
  refine (shapeCast_addUnit_apply ![32] (a6 m c) _ i).trans ?_
  show a6 m c (fun a => i a.succ) = a6 m c (ix1 (i 1))
  exact congrArg (a6 m c) (funext fun a => by match a with | ⟨0, _⟩ => rfl)

/-! ## Region 3: the second layer's output -/

theorem W7_v58 (c : Dev nD) : W7 m ρ c (Proc.devRef .tc main_v58) = Cert.ReferenceIdeal.Read.val_main_v89 (F := Ideal) (a0 m c) (a1 m c) (a3 m c) (a4 m c) (a5 m c) (a6 m c) :=
  ((W7_arr m ρ c 2).trans (Cert.KernelIdeal.Reg3.arr (V6 m ρ) c)).trans
    ((congrArg₂ biasRelu (W6_v56 m ρ c) (W6_v57 m ρ c)).trans (Cert.ReferenceIdeal.RefRead.v89_eq (a0 m c) (a1 m c) (a3 m c) (a4 m c) (a5 m c) (a6 m c)).symm)

/-! ## The fourth host stretch: the pooled embeddings, and the classifier's bias as a row -/

set_option maxHeartbeats 4000000 in
theorem W8_v70 (c : Dev nD) : W8 m ρ c (Proc.devRef .tc main_v70) = Cert.ReferenceIdeal.Read.val_main_v101 (F := Ideal) (a0 m c) (a1 m c) (a2 m c) (a3 m c) (a4 m c) (a5 m c) (a6 m c) := by
  show StableHlo.after hostOps4 (W7 m ρ c) (Proc.devRef .tc main_v70) = _
  after_results_simp
  rw [W7_v58 m ρ c, W7_arg2 m ρ c]
  rfl

set_option maxHeartbeats 4000000 in
theorem W8_v71 (c : Dev nD) : W8 m ρ c (Proc.devRef .tc main_v71) = (rowOf (a8 m c) : FVec Ideal S1x2 .f32) := by
  show StableHlo.after hostOps4 (W7 m ρ c) (Proc.devRef .tc main_v71) = _
  after_results_simp
  rw [W7_arg8 m ρ c]
  funext i
  refine (shapeCast_addUnit_apply ![2] (a8 m c) _ i).trans ?_
  show a8 m c (fun a => i a.succ) = a8 m c (ix1 (i 1))
  exact congrArg (a8 m c) (funext fun a => by match a with | ⟨0, _⟩ => rfl)

/-! ## Region 4: the result is the logarithm of the softmax of the reference's logits, in the kernel's grouping -/

theorem W9_v72 (c : Dev nD) : W9 m ρ c (Proc.devRef .tc main_v72)
    = (lsmOuter (Cert.ReferenceIdeal.Read.val_main_v105 (F := Ideal) (a0 m c) (a1 m c) (a2 m c) (a3 m c) (a4 m c) (a5 m c) (a6 m c) (a7 m c) (a8 m c)) : FVec Ideal S1024x2 .f32) := by
  refine ((W9_arr m ρ c 3).trans (Cert.KernelIdeal.Reg4.arr (V8 m ρ) c)).trans ?_
  rw [Cert.ReferenceIdeal.RefRead.v105_eq (a0 m c) (a1 m c) (a2 m c) (a3 m c) (a4 m c) (a5 m c) (a6 m c) (a7 m c) (a8 m c)]
  exact congrArg lsmOuter (congrArg₂ addRow (congrArg₂ mat (W8_v70 m ρ c) (W8_arg7 m ρ c)) (W8_v71 m ρ c))

end Cert.Bridge

end
-- ==== Proof.LibRealEntries.lean ====
/-
  Arrays of extended reals all of whose entries are real numbers, through the operations of a host program read at
  the extended reals: pointwise arithmetic, re-indexing (broadcasts, gathers, reshapes), the matrix product, the
  accumulating scatter, the reciprocal square root of positive entries and the quotient by positive entries.
-/
import Idealize.ShloMosaic.PureOps.Ideal
import Idealize.ShloMosaic.PureOps.Ideal.Laws
import Idealize.ShloMosaic.Lib.ValueIdx

noncomputable section

open scoped BigOperators

namespace Idealize.ShloMosaic.RealEntries
open Idealize.ShloMosaic

/-- Every entry is a real number. -/
def AllReal {s : Shape} (v : s.Idx → EReal) : Prop := ∀ i, ∃ r : ℝ, v i = (r : EReal)

/-- Every entry is a positive real number. -/
def AllPos {s : Shape} (v : s.Idx → EReal) : Prop := ∀ i, ∃ r : ℝ, 0 < r ∧ v i = (r : EReal)

/-- Every entry is a nonnegative real number. -/
def AllNonneg {s : Shape} (v : s.Idx → EReal) : Prop := ∀ i, ∃ r : ℝ, 0 ≤ r ∧ v i = (r : EReal)

theorem AllPos.allReal {s : Shape} {v : s.Idx → EReal} (h : AllPos v) : AllReal v := fun i => by
  obtain ⟨r, _, hr⟩ := h i
  exact ⟨r, hr⟩
theorem AllNonneg.allReal {s : Shape} {v : s.Idx → EReal} (h : AllNonneg v) : AllReal v := fun i => by
  obtain ⟨r, _, hr⟩ := h i
  exact ⟨r, hr⟩
/-- Positive entries are in particular nonnegative. -/
theorem AllPos.allNonneg {s : Shape} {v : s.Idx → EReal} (h : AllPos v) : AllNonneg v := fun i => by
  obtain ⟨r, hr0, hr⟩ := h i
  exact ⟨r, hr0.le, hr⟩

/-- Re-indexing keeps real entries. -/
theorem allReal_comp {s t : Shape} {v : s.Idx → EReal} (h : AllReal v) (f : t.Idx → s.Idx) : AllReal (fun i => v (f i)) :=
  fun i => h (f i)
theorem allPos_comp {s t : Shape} {v : s.Idx → EReal} (h : AllPos v) (f : t.Idx → s.Idx) : AllPos (fun i => v (f i)) :=
  fun i => h (f i)

/-- A finite sum of real numbers, in the extended reals, is a real number. -/
theorem sum_real {ι : Type} (S : Finset ι) (f : ι → EReal) (h : ∀ k ∈ S, ∃ r : ℝ, f k = (r : EReal)) : ∃ r : ℝ, ∑ k ∈ S, f k = (r : EReal) := by
  classical
  -- induction on the index set: the empty sum is the real 0, and one more real term adds inside the reals
  revert h
  refine Finset.induction_on S (fun _ => ⟨0, by simp⟩) ?_
  intro a T ha ih h
  obtain ⟨r, hr⟩ := h a (Finset.mem_insert_self a T)
  obtain ⟨t, ht⟩ := ih (fun k hk => h k (Finset.mem_insert_of_mem hk))
  exact ⟨r + t, by rw [Finset.sum_insert ha, hr, ht, EReal.coe_add]⟩
/-- A finite sum of nonnegative real numbers is a nonnegative real number. -/
theorem sum_nonneg_real {ι : Type} (S : Finset ι) (f : ι → EReal) (h : ∀ k ∈ S, ∃ r : ℝ, 0 ≤ r ∧ f k = (r : EReal)) :
    ∃ r : ℝ, 0 ≤ r ∧ ∑ k ∈ S, f k = (r : EReal) := by
  classical
  revert h
  refine Finset.induction_on S (fun _ => ⟨0, le_refl 0, by simp⟩) ?_
  intro a T ha ih h
  obtain ⟨r, hr0, hr⟩ := h a (Finset.mem_insert_self a T)
  obtain ⟨t, ht0, ht⟩ := ih (fun k hk => h k (Finset.mem_insert_of_mem hk))
  exact ⟨r + t, add_nonneg hr0 ht0, by rw [Finset.sum_insert ha, hr, ht, EReal.coe_add]⟩

/-- The larger of two real numbers, taken in the extended reals, is the larger of them in the reals. -/
theorem max_coe_coe (r t : ℝ) : max (r : EReal) (t : EReal) = ((max r t : ℝ) : EReal) := by
  rcases le_total r t with h | h
  · rw [max_eq_right h, max_eq_right (EReal.coe_le_coe_iff.mpr h)]
  · rw [max_eq_left h, max_eq_left (EReal.coe_le_coe_iff.mpr h)]

section Pointwise
variable {s : Shape} {φ : FTy}
theorem allReal_mulf {a b : FVec Ideal s φ} (ha : AllReal a) (hb : AllReal b) : AllReal (mulf a b) := fun i => by
  obtain ⟨r, hr⟩ := ha i
  obtain ⟨t, ht⟩ := hb i
  refine ⟨r * t, ?_⟩
  show a i * b i = _
  rw [hr, ht, EReal.coe_mul]
theorem allReal_addf {a b : FVec Ideal s φ} (ha : AllReal a) (hb : AllReal b) : AllReal (addf a b) := fun i => by
  obtain ⟨r, hr⟩ := ha i
  obtain ⟨t, ht⟩ := hb i
  refine ⟨r + t, ?_⟩
  show a i + b i = _
  rw [hr, ht, EReal.coe_add]
theorem allReal_maximumf {a b : FVec Ideal s φ} (ha : AllReal a) (hb : AllReal b) : AllReal (maximumf a b) := fun i => by
  obtain ⟨r, hr⟩ := ha i
  obtain ⟨t, ht⟩ := hb i
  refine ⟨max r t, ?_⟩
  show max (a i) (b i) = _
  rw [hr, ht, max_coe_coe]
/-- The pointwise maximum with an array of positive entries has positive entries. -/
theorem allPos_maximumf_right {a b : FVec Ideal s φ} (ha : AllReal a) (hb : AllPos b) : AllPos (maximumf a b) := fun i => by
  obtain ⟨r, hr⟩ := ha i
  obtain ⟨t, ht0, ht⟩ := hb i
  refine ⟨max r t, lt_max_of_lt_right ht0, ?_⟩
  show max (a i) (b i) = _
  rw [hr, ht, max_coe_coe]
/-- The host's quotient of real entries by positive entries has real entries. -/
theorem allReal_hostDivf {a b : FVec Ideal s φ} (ha : AllReal a) (hb : AllPos b) : AllReal (Host.divf a b) := fun i => by
  obtain ⟨r, hr⟩ := ha i
  obtain ⟨t, ht0, ht⟩ := hb i
  -- off zero the quotient is the product with the reciprocal, a product of two reals
  refine ⟨r * (1 / t), ?_⟩
  show Ideal.div (a i) (b i) = _
  rw [hr, ht, Ideal.div_coe ht0.ne', EReal.coe_mul]
/-- The host's reciprocal square root of positive entries has real (indeed positive) entries. -/
theorem allPos_hostRsqrt {a : FVec Ideal s φ} (ha : AllPos a) : AllPos (Host.rsqrt a) := fun i => by
  obtain ⟨r, hr0, hr⟩ := ha i
  -- at a positive real r the reciprocal square root is the real (√r)⁻¹, positive since √r is
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']
end Pointwise

/-- The f32 patterns of zero and one are the real numbers 0 and 1. -/
theorem ofBits_zero : Ideal.ofBits .f32 0x00000000#32 = ((0 : ℝ) : EReal) := by
  rw [Ideal.ofBits_zero_f32, EReal.coe_zero]
theorem ofBits_one : Ideal.ofBits .f32 0x3F800000#32 = ((1 : ℝ) : EReal) := by
  -- sign 0, exponent field 127 (the bias), fraction 0: the normal number 2^23 · 2^(127 - 127 - 23) = 1
  rw [EReal.coe_one]
  simp [Ideal.ofBits, Ideal.ieee, -EReal.coe_mul]
  norm_num
theorem allReal_constant_zero (s : Shape) : AllReal (constant (F := Ideal) s .f32 0x00000000#32) :=
  fun _ => ⟨0, ofBits_zero⟩
theorem allPos_constant_one (s : Shape) : AllPos (constant (F := Ideal) s .f32 0x3F800000#32) :=
  fun _ => ⟨1, one_pos, ofBits_one⟩

/-- A broadcast re-indexes its operand. -/
theorem allReal_broadcastInDim {s t : Shape} (dims : Fin s.rank → Fin t.rank) (h : s.BroadcastsInDim t dims)
    {v : s.Idx → EReal} (hv : AllReal v) : AllReal (broadcastInDim t dims h v) :=
  fun _ => hv _
theorem allPos_broadcastInDim {s t : Shape} (dims : Fin s.rank → Fin t.rank) (h : s.BroadcastsInDim t dims)
    {v : s.Idx → EReal} (hv : AllPos v) : AllPos (broadcastInDim t dims h v) :=
  fun _ => hv _

/-- A gather re-indexes its operand, whatever the indices. -/
theorem allReal_gather {s si t : Shape} {w : Nat} (d : GatherDims s si t) {v : s.Idx → EReal} (hv : AllReal v) (idx : IVec si w) :
    AllReal (Host.gather d v idx) :=
  fun j => hv (d.operandIdx j idx)
theorem allPos_gather {s si t : Shape} {w : Nat} (d : GatherDims s si t) {v : s.Idx → EReal} (hv : AllPos v) (idx : IVec si w) :
    AllPos (Host.gather d v idx) :=
  fun j => hv (d.operandIdx j idx)

/-- The host's matrix product of arrays with real entries has real entries. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral (F := Ideal) d prec l r) := fun j => by
  -- entry j is the sum over the contracted index of products of an entry of l and an entry of r
  show ∃ x : ℝ, FloatOps.dotGeneral d prec .single l r j = (x : EReal)
  rw [Ideal.dotGeneral_apply]
  refine sum_real _ _ (fun k _ => ?_)
  obtain ⟨x, hx⟩ := hl (d.lhsIdx j k)
  obtain ⟨y, hy⟩ := hr (d.rhsIdx j k)
  exact ⟨x * y, by rw [hx, hy, EReal.coe_mul]⟩

/-- Entry i of the accumulating scatter: the operand's entry plus the sum of the updates that land on i. -/
theorem scatterAdd_apply {s si su : Shape} {φ : FTy} {w : Nat} (d : ScatterDims s si su) (x : FVec Ideal s φ) (idx : IVec si w)
    (upd : FVec Ideal su φ) (i : s.Idx) :
    Host.scatterAdd (F := Ideal) d x idx upd i
      = x i + ∑ j ∈ Finset.univ.filter (fun j => d.resultIdx? j idx = some i), upd j := rfl

/-- The accumulating scatter of real updates into real entries has real entries, whatever the indices. -/
theorem allReal_scatterAdd {s si su : Shape} {φ : FTy} {w : Nat} (d : ScatterDims s si su) {x : FVec Ideal s φ} (idx : IVec si w)
    {upd : FVec Ideal su φ} (hx : AllReal x) (hu : AllReal upd) : AllReal (Host.scatterAdd (F := Ideal) d x idx upd) := fun i => by
  obtain ⟨r, hr⟩ := hx i
  obtain ⟨t, ht⟩ := sum_real (Finset.univ.filter (fun j => d.resultIdx? j idx = some i)) upd (fun k _ => hu k)
  exact ⟨r + t, by rw [scatterAdd_apply, hr, ht, EReal.coe_add]⟩

/-- Nonnegative updates scattered into nonnegative entries leave nonnegative entries. -/
theorem allNonneg_scatterAdd {s si su : Shape} {φ : FTy} {w : Nat} (d : ScatterDims s si su) {x : FVec Ideal s φ} (idx : IVec si w)
    {upd : FVec Ideal su φ} (hx : AllNonneg x) (hu : AllNonneg upd) : AllNonneg (Host.scatterAdd (F := Ideal) d x idx upd) := fun i => by
  obtain ⟨r, hr0, hr⟩ := hx i
  obtain ⟨t, ht0, ht⟩ :=
    sum_nonneg_real (Finset.univ.filter (fun j => d.resultIdx? j idx = some i)) upd (fun k _ => hu k)
  exact ⟨r + t, add_nonneg hr0 ht0, by rw [scatterAdd_apply, hr, ht, EReal.coe_add]⟩

/-- If the updates are nonnegative, the entries nonnegative, and for every entry i some update of value at least one
    lands on i, then every entry of the result is positive. -/
theorem allPos_scatterAdd_of_hit {s si su : Shape} {φ : FTy} {w : Nat} (d : ScatterDims s si su) {x : FVec Ideal s φ} (idx : IVec si w)
    {upd : FVec Ideal su φ} (hx : AllNonneg x) (hu : AllNonneg upd)
    (hit : ∀ i : s.Idx, ∃ j : su.Idx, d.resultIdx? j idx = some i ∧ ∃ r : ℝ, 1 ≤ r ∧ upd j = (r : EReal)) :
    AllPos (Host.scatterAdd (F := Ideal) d x idx upd) := fun i => by
  classical
  obtain ⟨r, hr0, hr⟩ := hx i
  obtain ⟨j, hj, q, hq1, hq⟩ := hit i
  -- the update j is one of those that land on i: split it off the sum; what is left is a nonnegative real
  have hmem : j ∈ Finset.univ.filter (fun j => d.resultIdx? j idx = some i) :=
    Finset.mem_filter.mpr ⟨Finset.mem_univ j, hj⟩
  obtain ⟨t, ht0, ht⟩ :=
    sum_nonneg_real ((Finset.univ.filter (fun j => d.resultIdx? j idx = some i)).erase j) upd (fun k _ => hu k)
  refine ⟨r + (q + t), by linarith, ?_⟩
  rw [scatterAdd_apply, ← Finset.add_sum_erase _ upd hmem, hr, hq, ht, EReal.coe_add, EReal.coe_add]

end Idealize.ShloMosaic.RealEntries

end
-- ==== Proof.LsmMath.lean ====
/-
  The two groupings of the logarithm of a softmax agree where the logits are real numbers.
-/
import proofs.«133488_j43207370998208_1_alg».proof.Proof.Fns
import proofs.«133488_j43207370998208_1_alg».proof.Proof.LibRealEntries

noncomputable section

namespace Cert.Fns
open Idealize.ShloMosaic Idealize.ShloMosaic.ValueIdx Idealize.ShloMosaic.RealEntries

/-- The exponential of a real number is a positive real number. -/
private theorem exp_coe_pos (r : ℝ) : ∃ s : ℝ, 0 < s ∧ Ideal.exp (r : EReal) = (s : EReal) :=
  ⟨Real.exp r, Real.exp_pos r, rfl⟩

/-- The logarithm of a positive real number is a real number. -/
private theorem log_coe_of_pos (r : ℝ) (hr : 0 < r) : ∃ s : ℝ, Ideal.log (r : EReal) = (s : EReal) :=
  ⟨Real.log r, by rw [Ideal.log_coe, if_neg (not_le.mpr hr)]⟩

/-- The greatest of two real logits is real: the inclusion of the reals is monotone, so it carries
    the maximum of two reals to the maximum of their images. -/
private theorem rowMax_real {M : Nat} (l : (⟨2, ![M, 2]⟩ : Shape).Idx → EReal) (h : AllReal l) (p : Fin M) :
    ∃ m : ℝ, rowMax l p = (m : EReal) := by
  obtain ⟨a, ha⟩ := h (ix2 p 0)
  obtain ⟨b, hb⟩ := h (ix2 p 1)
  refine ⟨max a b, ?_⟩
  unfold rowMax
  rw [ha, hb]
  exact (EReal.coe_strictMono.monotone.map_max).symm

/-- Each entry less the row's maximum is real, its exponential a positive real, and the sum of the two
    exponentials a positive real. -/
private theorem rowSumExp_pos {M : Nat} (l : (⟨2, ![M, 2]⟩ : Shape).Idx → EReal) (h : AllReal l) (p : Fin M) :
    ∃ s : ℝ, 0 < s ∧ rowSumExp l p = (s : EReal) := by
  obtain ⟨a, ha⟩ := h (ix2 p 0)
  obtain ⟨b, hb⟩ := h (ix2 p 1)
  obtain ⟨m, hm⟩ := rowMax_real l h p
  obtain ⟨ea, hea, hEa⟩ := exp_coe_pos (a - m)
  obtain ⟨eb, heb, hEb⟩ := exp_coe_pos (b - m)
  refine ⟨ea + eb, add_pos hea heb, ?_⟩
  unfold rowSumExp
  rw [hm, ha, hb, ← EReal.coe_sub, ← EReal.coe_sub, hEa, hEb, ← EReal.coe_add]

/-- For real logits, l − (max + log Σ exp (l − max)) = (l − max) − log Σ exp (l − max): the maximum of a row is
    real, each exponential is a positive real, so their sum is positive and its logarithm real, and the identity is
    one of real arithmetic. (At an infinite logit the two sides differ.) -/
theorem lsmOuter_eq_lsmInner {M : Nat} (l : (⟨2, ![M, 2]⟩ : Shape).Idx → EReal) (h : AllReal l) : lsmOuter l = lsmInner l := by
  funext i
  obtain ⟨x, hx⟩ := h i
  obtain ⟨m, hm⟩ := rowMax_real l h (i 0)
  obtain ⟨s, hs, hS⟩ := rowSumExp_pos l h (i 0)
  obtain ⟨L, hL⟩ := log_coe_of_pos s hs
  show l i - (rowMax l (i 0) + Ideal.log (rowSumExp l (i 0)))
      = (l i - rowMax l (i 0)) - Ideal.log (rowSumExp l (i 0))
  rw [hx, hm, hS, hL, ← EReal.coe_add, ← EReal.coe_sub, ← EReal.coe_sub, ← EReal.coe_sub, sub_add_eq_sub_sub]

end Cert.Fns

end
-- ==== Proof.DegHit.lean ====
/-
  Every node's self loop is among the scattered targets: entry 6400000 + i of the concatenated target list is i, so
  the update at that entry lands on node i.

  The target list is the second row of the edge list (6,400,000 entries) followed by 0, 1, …, 199999, with a
  trailing unit axis. The scatter has one operand axis, which the index vector names and which is an inserted
  window axis: the landing index of update j is the signed value of the word at (j, 0), with no window offset,
  kept when it lies in [0, 200000).
-/
import proofs.«133488_j43207370998208_1_alg».proof.Proof.Gen.ReferenceIdeal.Read
import Idealize.ShloMosaic.Lib.Pipeline.Value
import Idealize.ShloMosaic.Lib.ValueIdx

noncomputable section

namespace Cert.ReferenceIdeal.DegHit

open Idealize.ShloMosaic Idealize.ShloMosaic.ValueIdx
open Cert.ReferenceIdeal Cert.ReferenceIdeal.Read

local notation "sc" => scatter_S200000_S6600000x1_S6600000_n_0_0_1

/-! ### The target list past the edges is the list of nodes -/

/-- Entry 6400000 + n of the concatenation is entry n of its second piece, the word n. -/
theorem v6_right (x1 : IVec S2x6400000 32) (m : S6600000.Idx) (n : Nat) (hn : n < 200000)
    (hm : (m 0).val = 6400000 + n) :
    val_main_v6 (F := Ideal) x1 m = BitVec.ofNat 32 n := by
  unfold val_main_v6
  rw [concatenate_pair_apply_right (0 : Fin S6600000.rank) (val_main_v5 (F := Ideal) x1) (val_main_v0 (F := Ideal))
    Gen.concatenates_S6400000_S200000_S6600000_d0 m rfl rfl (ix1 ⟨n, hn⟩)
    (fun b hb => absurd (Fin.fin_one_eq_zero b) hb)
    (by show n + 6400000 = (m 0).val; omega)]
  rfl

/-- The same with the trailing unit axis: row 6400000 + n of the index array holds the word n. -/
theorem v9_right (x1 : IVec S2x6400000 32) (k : S6600000x1.Idx) (n : Nat) (hn : n < 200000)
    (hk : (k 0).val = 6400000 + n) :
    val_main_v9 (F := Ideal) x1 k = BitVec.ofNat 32 n := by
  rw [val_main_v9_apply]
  exact v6_right x1 _ n hn hk

/-- A word below 200000 is its own signed value: it is below 2 ^ 31. -/
theorem toInt_ofNat_small (n : Nat) (hn : n < 200000) : (BitVec.ofNat 32 n).toInt = (n : Int) := by
  have h1 : (BitVec.ofNat 32 n).toNat = n := by
    rw [BitVec.toNat_ofNat]; exact Nat.mod_eq_of_lt (by omega)
  unfold BitVec.toInt
  rw [h1, if_pos (by omega)]

/-! ### This scatter's dimension numbers, read off -/

/-- The one operand axis is named by the index vector. -/
theorem mem0 : (0 : Fin S200000.rank) ∈ (sc).scatterDimsToOperandDims := by decide

/-- The index array is read at row (j 0): the update's only coordinate is its scatter coordinate. -/
theorem siIdx0 (j : S6600000.Idx) (c : Fin (sc).scatterDimsToOperandDims.length) :
    ((sc).siIdx j c (0 : Fin S6600000x1.rank)).val = (j 0).val := by
  unfold ScatterDims.siIdx
  rw [dif_neg (by decide)]
  unfold ScatterDims.siCoord
  simp only [Fin.coe_cast]
  congr 2

/-- The start on the operand's axis is the signed value of the word the update reads. -/
theorem start0 (j : S6600000.Idx) (idx : IVec S6600000x1 32) (a : Fin S200000.rank) :
    (sc).start j idx a = (idx ((sc).siIdx j ⟨0, by decide⟩)).toInt := by
  have ha : a = 0 := Fin.fin_one_eq_zero a
  subst ha
  unfold ScatterDims.start
  rw [dif_pos mem0]
  rfl

/-- The operand's axis is an inserted window axis: no window offset. -/
theorem window0 (j : S6600000.Idx) (a : Fin S200000.rank) : (sc).window j a = 0 := by
  have ha : a = 0 := Fin.fin_one_eq_zero a
  subst ha
  unfold ScatterDims.window
  rw [dif_neg (by decide)]

/-! ### The self loop of node i lands on i -/

/-- For every node i some entry of the scatter indices (the node's self loop) lands on i. -/
theorem hit (x1 : IVec S2x6400000 32) (i : S200000.Idx) :
    ∃ j : S6600000.Idx, scatter_S200000_S6600000x1_S6600000_n_0_0_1.resultIdx? j (val_main_v9 (F := Ideal) x1) = some i := by
  have hi : (i 0).val < 200000 := (i 0).isLt
  refine ⟨ix1 ⟨6400000 + (i 0).val, by omega⟩, ?_⟩
  -- the start is the node's number, the window offset is zero
  have hs : ∀ a, (sc).start (ix1 ⟨6400000 + (i 0).val, by omega⟩) (val_main_v9 (F := Ideal) x1) a = ((i 0).val : Int) :=
    fun a => by
      rw [start0, v9_right x1 _ (i 0).val hi ((siIdx0 _ _).trans rfl), toInt_ofNat_small _ hi]
  have hw := window0 (ix1 ⟨6400000 + (i 0).val, by omega⟩)
  unfold ScatterDims.resultIdx?
  rw [dif_pos (fun a => by
    rw [hs a, hw a]
    have ha : a = 0 := Fin.fin_one_eq_zero a
    subst ha
    refine ⟨by omega, ?_⟩
    show ((i 0).val : Int) + ((0 : Nat) : Int) < ((200000 : Nat) : Int)
    omega)]
  congr 1
  funext a
  apply Fin.ext
  show ((sc).start (ix1 ⟨6400000 + (i 0).val, by omega⟩) (val_main_v9 (F := Ideal) x1) a
    + (((sc).window (ix1 ⟨6400000 + (i 0).val, by omega⟩) a : Nat) : Int)).toNat = (i a).val
  rw [hs a, hw a]
  have ha : a = 0 := Fin.fin_one_eq_zero a
  subst ha
  omega

end Cert.ReferenceIdeal.DegHit

end
-- ==== Proof.FinChain.lean ====
/-
  With real float arguments every stage of the reference program up to the logits has real entries: the degrees are
  at least one (each node's self loop), so their reciprocal square roots are positive reals; products, gathers,
  scatters of real entries are real; the pooled counts, taken at least one, divide safely.
-/
import proofs.«133488_j43207370998208_1_alg».proof.Proof.Gen.ReferenceIdeal.Read
import proofs.«133488_j43207370998208_1_alg».proof.Proof.LibRealEntries
import proofs.«133488_j43207370998208_1_alg».proof.Proof.DegHit

noncomputable section

namespace Cert.ReferenceIdeal.FinChain

open Idealize.ShloMosaic Idealize.ShloMosaic.RealEntries
open Cert.ReferenceIdeal Cert.ReferenceIdeal.Read

variable (x0 : FVec Ideal S200000x3 .f32) (x1 : IVec S2x6400000 32) (x2 : IVec S200000 32) (x3 : FVec Ideal S3x16 .f32)
  (x4 : FVec Ideal S16 .f32) (x5 : FVec Ideal S16x32 .f32) (x6 : FVec Ideal S32 .f32) (x7 : FVec Ideal S32x2 .f32) (x8 : FVec Ideal S2 .f32)

/-! ### Constant stages: arrays of zeros and of ones -/

/-- A broadcast of nonnegative entries has nonnegative entries: it re-indexes its operand. -/
theorem allNonneg_bcast {s t : Shape} (dims : Fin s.rank → Fin t.rank) (h : s.BroadcastsInDim t dims)
    {v : s.Idx → EReal} (hv : AllNonneg v) : AllNonneg (broadcastInDim t dims h v) :=
  fun _ => hv _

/-- The constant zero is nonnegative. -/
theorem allNonneg_zero (s : Shape) : AllNonneg (constant (F := Ideal) s .f32 0x00000000#32) :=
  fun _ => ⟨0, le_refl 0, ofBits_zero⟩

theorem pos_v7 : AllPos (val_main_v7 (F := Ideal)) := by
  unfold val_main_v7 val_main_cst; exact allPos_broadcastInDim _ _ (allPos_constant_one _)
theorem nonneg_v8 : AllNonneg (val_main_v8 (F := Ideal)) := by
  unfold val_main_v8 val_main_cst_0; exact allNonneg_bcast _ _ (allNonneg_zero _)
theorem real_v38 : AllReal (val_main_v38 (F := Ideal)) := by
  unfold val_main_v38 val_main_cst_6; exact allReal_broadcastInDim _ _ (allReal_constant_zero _)
theorem real_call0_v0 : AllReal (val_main_call0_v0 (F := Ideal)) := by
  unfold val_main_call0_v0 val_main_call0_cst; exact allReal_broadcastInDim _ _ (allReal_constant_zero _)
theorem pos_v52 : AllPos (val_main_v52 (F := Ideal)) := by
  unfold val_main_v52 val_main_cst_7; exact allPos_broadcastInDim _ _ (allPos_constant_one _)
theorem nonneg_v53 : AllNonneg (val_main_v53 (F := Ideal)) := by
  unfold val_main_v53 val_main_cst_8; exact allNonneg_bcast _ _ (allNonneg_zero _)
theorem real_v83 : AllReal (val_main_v83 (F := Ideal)) := by
  unfold val_main_v83 val_main_cst_15; exact allReal_broadcastInDim _ _ (allReal_constant_zero _)
theorem real_call1_v0 : AllReal (val_main_call1_v0 (F := Ideal)) := by
  unfold val_main_call1_v0 val_main_call1_cst; exact allReal_broadcastInDim _ _ (allReal_constant_zero _)
theorem real_v90 : AllReal (val_main_v90 (F := Ideal)) := by
  unfold val_main_v90 val_main_cst_16; exact allReal_broadcastInDim _ _ (allReal_constant_zero _)
theorem pos_v93 : AllPos (val_main_v93 (F := Ideal)) := by
  unfold val_main_v93 val_main_cst_17; exact allPos_broadcastInDim _ _ (allPos_constant_one _)
theorem nonneg_v94 : AllNonneg (val_main_v94 (F := Ideal)) := by
  unfold val_main_v94 val_main_cst_18; exact allNonneg_bcast _ _ (allNonneg_zero _)
theorem pos_v97 : AllPos (val_main_v97 (F := Ideal)) := by
  unfold val_main_v97 val_main_cst_19; exact allPos_broadcastInDim _ _ (allPos_constant_one _)

/-- Every entry of the array of ones is the real number one. -/
theorem v7_one (j : S6600000.Idx) : val_main_v7 (F := Ideal) j = ((1 : ℝ) : EReal) := ofBits_one
theorem v52_one (j : S6600000.Idx) : val_main_v52 (F := Ideal) j = ((1 : ℝ) : EReal) := ofBits_one

/-! ### The first layer -/

/-- The degrees: every node receives its self loop's one, so each degree is a positive real. -/
theorem pos_v10 : AllPos (val_main_v10 (F := Ideal) x1) := by
  unfold val_main_v10
  refine allPos_scatterAdd_of_hit _ _ nonneg_v8 pos_v7.allNonneg (fun i => ?_)
  obtain ⟨j, hj⟩ := DegHit.hit x1 i
  exact ⟨j, hj, 1, le_refl 1, v7_one j⟩
theorem pos_v11 : AllPos (val_main_v11 (F := Ideal) x1) := by
  unfold val_main_v11; exact allPos_hostRsqrt (pos_v10 x1)
theorem pos_v18 : AllPos (val_main_v18 (F := Ideal) x1) := by
  unfold val_main_v18; exact allPos_gather _ (pos_v11 x1) _
theorem pos_v25 : AllPos (val_main_v25 (F := Ideal) x1) := by
  unfold val_main_v25; exact allPos_gather _ (pos_v11 x1) _
theorem real_v26 : AllReal (val_main_v26 (F := Ideal) x1) := by
  unfold val_main_v26; exact allReal_mulf (pos_v18 x1).allReal (pos_v25 x1).allReal
theorem real_v35 : AllReal (val_main_v35 (F := Ideal) x1) := by
  unfold val_main_v35; exact allReal_broadcastInDim _ _ (real_v26 x1)
theorem real_v36 : AllReal (val_main_v36 (F := Ideal) x1) := by
  unfold val_main_v36; exact allReal_broadcastInDim _ _ (real_v35 x1)
theorem real_v27 (h0 : AllReal x0) (h3 : AllReal x3) : AllReal (val_main_v27 (F := Ideal) x0 x3) := by
  unfold val_main_v27; exact allReal_dotGeneral _ _ h0 h3
theorem real_v34 (h0 : AllReal x0) (h3 : AllReal x3) : AllReal (val_main_v34 (F := Ideal) x0 x1 x3) := by
  unfold val_main_v34; exact allReal_gather _ (real_v27 x0 x3 h0 h3) _
theorem real_v37 (h0 : AllReal x0) (h3 : AllReal x3) : AllReal (val_main_v37 (F := Ideal) x0 x1 x3) := by
  unfold val_main_v37; exact allReal_mulf (real_v34 x0 x1 x3 h0 h3) (real_v36 x1)
theorem real_v40 (h0 : AllReal x0) (h3 : AllReal x3) : AllReal (val_main_v40 (F := Ideal) x0 x1 x3) := by
  unfold val_main_v40; exact allReal_scatterAdd _ _ real_v38 (real_v37 x0 x1 x3 h0 h3)
theorem real_v41 (h4 : AllReal x4) : AllReal (val_main_v41 (F := Ideal) x4) := by
  unfold val_main_v41; exact allReal_broadcastInDim _ _ h4
theorem real_v42 (h4 : AllReal x4) : AllReal (val_main_v42 (F := Ideal) x4) := by
  unfold val_main_v42; exact allReal_broadcastInDim _ _ (real_v41 x4 h4)
theorem real_v43 (h0 : AllReal x0) (h3 : AllReal x3) (h4 : AllReal x4) :
    AllReal (val_main_v43 (F := Ideal) x0 x1 x3 x4) := by
  unfold val_main_v43; exact allReal_addf (real_v40 x0 x1 x3 h0 h3) (real_v42 x4 h4)
theorem real_v44 (h0 : AllReal x0) (h3 : AllReal x3) (h4 : AllReal x4) :
    AllReal (val_main_v44 (F := Ideal) x0 x1 x3 x4) := by
  unfold val_main_v44; exact allReal_maximumf (real_v43 x0 x1 x3 x4 h0 h3 h4) real_call0_v0

/-! ### The second layer -/

/-- The second layer scatters over the same index list as the first (the same slices of the same argument). -/
theorem v54_eq : val_main_v54 (F := Ideal) x1 = val_main_v9 (F := Ideal) x1 := rfl

theorem pos_v55 : AllPos (val_main_v55 (F := Ideal) x1) := by
  unfold val_main_v55
  refine allPos_scatterAdd_of_hit _ _ nonneg_v53 pos_v52.allNonneg (fun i => ?_)
  obtain ⟨j, hj⟩ := DegHit.hit x1 i
  rw [v54_eq]
  exact ⟨j, hj, 1, le_refl 1, v52_one j⟩
theorem pos_v56 : AllPos (val_main_v56 (F := Ideal) x1) := by
  unfold val_main_v56; exact allPos_hostRsqrt (pos_v55 x1)
theorem pos_v63 : AllPos (val_main_v63 (F := Ideal) x1) := by
  unfold val_main_v63; exact allPos_gather _ (pos_v56 x1) _
theorem pos_v70 : AllPos (val_main_v70 (F := Ideal) x1) := by
  unfold val_main_v70; exact allPos_gather _ (pos_v56 x1) _
theorem real_v71 : AllReal (val_main_v71 (F := Ideal) x1) := by
  unfold val_main_v71; exact allReal_mulf (pos_v63 x1).allReal (pos_v70 x1).allReal
theorem real_v80 : AllReal (val_main_v80 (F := Ideal) x1) := by
  unfold val_main_v80; exact allReal_broadcastInDim _ _ (real_v71 x1)
theorem real_v81 : AllReal (val_main_v81 (F := Ideal) x1) := by
  unfold val_main_v81; exact allReal_broadcastInDim _ _ (real_v80 x1)
theorem real_v72 (h0 : AllReal x0) (h3 : AllReal x3) (h4 : AllReal x4) (h5 : AllReal x5) :
    AllReal (val_main_v72 (F := Ideal) x0 x1 x3 x4 x5) := by
  unfold val_main_v72; exact allReal_dotGeneral _ _ (real_v44 x0 x1 x3 x4 h0 h3 h4) h5
theorem real_v79 (h0 : AllReal x0) (h3 : AllReal x3) (h4 : AllReal x4) (h5 : AllReal x5) :
    AllReal (val_main_v79 (F := Ideal) x0 x1 x3 x4 x5) := by
  unfold val_main_v79; exact allReal_gather _ (real_v72 x0 x1 x3 x4 x5 h0 h3 h4 h5) _
theorem real_v82 (h0 : AllReal x0) (h3 : AllReal x3) (h4 : AllReal x4) (h5 : AllReal x5) :
    AllReal (val_main_v82 (F := Ideal) x0 x1 x3 x4 x5) := by
  unfold val_main_v82; exact allReal_mulf (real_v79 x0 x1 x3 x4 x5 h0 h3 h4 h5) (real_v81 x1)
theorem real_v85 (h0 : AllReal x0) (h3 : AllReal x3) (h4 : AllReal x4) (h5 : AllReal x5) :
    AllReal (val_main_v85 (F := Ideal) x0 x1 x3 x4 x5) := by
  unfold val_main_v85; exact allReal_scatterAdd _ _ real_v83 (real_v82 x0 x1 x3 x4 x5 h0 h3 h4 h5)
theorem real_v86 (h6 : AllReal x6) : AllReal (val_main_v86 (F := Ideal) x6) := by
  unfold val_main_v86; exact allReal_broadcastInDim _ _ h6
theorem real_v87 (h6 : AllReal x6) : AllReal (val_main_v87 (F := Ideal) x6) := by
  unfold val_main_v87; exact allReal_broadcastInDim _ _ (real_v86 x6 h6)
theorem real_v88 (h0 : AllReal x0) (h3 : AllReal x3) (h4 : AllReal x4) (h5 : AllReal x5) (h6 : AllReal x6) :
    AllReal (val_main_v88 (F := Ideal) x0 x1 x3 x4 x5 x6) := by
  unfold val_main_v88; exact allReal_addf (real_v85 x0 x1 x3 x4 x5 h0 h3 h4 h5) (real_v87 x6 h6)
theorem real_v89 (h0 : AllReal x0) (h3 : AllReal x3) (h4 : AllReal x4) (h5 : AllReal x5) (h6 : AllReal x6) :
    AllReal (val_main_v89 (F := Ideal) x0 x1 x3 x4 x5 x6) := by
  unfold val_main_v89; exact allReal_maximumf (real_v88 x0 x1 x3 x4 x5 x6 h0 h3 h4 h5 h6) real_call1_v0

/-! ### The mean over each graph and the logits -/

theorem real_v92 (h0 : AllReal x0) (h3 : AllReal x3) (h4 : AllReal x4) (h5 : AllReal x5) (h6 : AllReal x6) :
    AllReal (val_main_v92 (F := Ideal) x0 x1 x2 x3 x4 x5 x6) := by
  unfold val_main_v92; exact allReal_scatterAdd _ _ real_v90 (real_v89 x0 x1 x3 x4 x5 x6 h0 h3 h4 h5 h6)
/-- The node counts: sums of ones, so nonnegative reals. -/
theorem nonneg_v96 : AllNonneg (val_main_v96 (F := Ideal) x2) := by
  unfold val_main_v96; exact allNonneg_scatterAdd _ _ nonneg_v94 pos_v93.allNonneg
/-- The counts taken at least one are positive. -/
theorem pos_v98 : AllPos (val_main_v98 (F := Ideal) x2) := by
  unfold val_main_v98; exact allPos_maximumf_right (nonneg_v96 x2).allReal pos_v97
theorem pos_v99 : AllPos (val_main_v99 (F := Ideal) x2) := by
  unfold val_main_v99; exact allPos_broadcastInDim _ _ (pos_v98 x2)
theorem pos_v100 : AllPos (val_main_v100 (F := Ideal) x2) := by
  unfold val_main_v100; exact allPos_broadcastInDim _ _ (pos_v99 x2)
theorem real_v101 (h0 : AllReal x0) (h3 : AllReal x3) (h4 : AllReal x4) (h5 : AllReal x5) (h6 : AllReal x6) :
    AllReal (val_main_v101 (F := Ideal) x0 x1 x2 x3 x4 x5 x6) := by
  unfold val_main_v101; exact allReal_hostDivf (real_v92 x0 x1 x2 x3 x4 x5 x6 h0 h3 h4 h5 h6) (pos_v100 x2)
theorem real_v102 (h0 : AllReal x0) (h3 : AllReal x3) (h4 : AllReal x4) (h5 : AllReal x5) (h6 : AllReal x6)
    (h7 : AllReal x7) : AllReal (val_main_v102 (F := Ideal) x0 x1 x2 x3 x4 x5 x6 x7) := by
  unfold val_main_v102; exact allReal_dotGeneral _ _ (real_v101 x0 x1 x2 x3 x4 x5 x6 h0 h3 h4 h5 h6) h7
theorem real_v103 (h8 : AllReal x8) : AllReal (val_main_v103 (F := Ideal) x8) := by
  unfold val_main_v103; exact allReal_broadcastInDim _ _ h8
theorem real_v104 (h8 : AllReal x8) : AllReal (val_main_v104 (F := Ideal) x8) := by
  unfold val_main_v104; exact allReal_broadcastInDim _ _ (real_v103 x8 h8)

/-- The logits are real numbers when the float arguments are. -/
theorem logits_real (h0 : AllReal x0) (h3 : AllReal x3) (h4 : AllReal x4) (h5 : AllReal x5) (h6 : AllReal x6)
    (h7 : AllReal x7) (h8 : AllReal x8) : AllReal (val_main_v105 (F := Ideal) x0 x1 x2 x3 x4 x5 x6 x7 x8) := by
  unfold val_main_v105
  exact allReal_addf (real_v102 x0 x1 x2 x3 x4 x5 x6 x7 h0 h3 h4 h5 h6 h7) (real_v104 x8 h8)

end Cert.ReferenceIdeal.FinChain

end
-- ==== Proof.PreReal.lean ====
/-
  The precondition, every float argument less than +∞ in absolute value, says that every entry of every float
  argument is a real number.

  The printed predicate is a conjunction of seven bits, one per float argument; each bit is the conjunction, over
  all entries x of that argument, of the bit of the strict comparison |x| < +∞. At the extended reals |x| is
  max x (−x) and the pattern 0x7F800000 is ⊤, so the comparison holds exactly when x is neither ⊥ nor ⊤, that is,
  when x is a real number.
-/
import proofs.«133488_j43207370998208_1_alg».proof.Pre_finite_inputs
import proofs.«133488_j43207370998208_1_alg».proof.Proof.LibRealEntries
import Idealize.ShloMosaic.Lib.ReduceAll
import Idealize.ShloMosaic.Lib.ValueIdx

noncomputable section

namespace Cert.Pre_finite_inputs.PreReal

open Idealize.ShloMosaic Idealize.ShloMosaic.RealEntries
open Cert.Pre_finite_inputs

variable [Cert.Pre_finite_inputs.Facts]

/-- The shape of rank 0 has exactly one index: there is no axis to give a coordinate on. -/
instance : Subsingleton S_.Idx := ⟨fun a b => funext fun d => d.elim0⟩

/-- The one-bit word of a truth value is 1 exactly when the truth value is true. -/
theorem ofBool_eq_one (b : Bool) : BitVec.ofBool b = 1#1 ↔ b = true := by cases b <;> decide

/-- The f32 pattern with all exponent bits set, fraction zero and sign clear is +∞. -/
theorem ofBits_inf : Ideal.ofBits .f32 0x7F800000#32 = (⊤ : EReal) := by
  simp [Ideal.ofBits, Ideal.ieee]

/-- The element fact: if |x| = max x (−x) is strictly below +∞ then x is a real number.
    For x = ⊤ the maximum is ⊤ itself, for x = ⊥ it is −⊥ = ⊤; neither is strictly below ⊤. -/
theorem real_of_abs_lt_inf (x : EReal)
    (h : Ideal.cmp .olt (max x (-x)) (Ideal.ofBits .f32 0x7F800000#32) = 1#1) : ∃ r : ℝ, x = (r : EReal) := by
  rw [ofBits_inf] at h
  -- the comparison's bit is the truth value of the strict inequality
  have hlt : max x (-x) < ⊤ := by
    have hb := (ofBool_eq_one _).1 h
    exact of_decide_eq_true hb
  obtain ⟨h1, h2⟩ := max_lt_iff.1 hlt
  induction x using EReal.rec with
  | bot => exact absurd h2 (by simp)
  | coe r => exact ⟨r, rfl⟩
  | top => exact absurd h1 (lt_irrefl _)

/-- One argument's conjunct, for an array of any shape reduced over all its axes: if the conjunction over all
    entries of the bits of |x| < +∞ is 1, every entry is a real number. -/
theorem allReal_of_all_lt_inf {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) : AllReal a := fun i => by
  -- a conjunction over all entries that is 1 has a 1 at entry i; that entry is the comparison of |a i| with +∞
  have hi := Host.reduce_andi_all _ _ hr hu ValueIdx.ix0 e i
  exact real_of_abs_lt_inf (a i) hi

theorem real_of_pre (a0 : FVec Ideal S200000x3 .f32) (a1 : IVec S2x6400000 32) (a2 : IVec S200000 32) (a3 : FVec Ideal S3x16 .f32)
    (a4 : FVec Ideal S16 .f32) (a5 : FVec Ideal S16x32 .f32) (a6 : FVec Ideal S32 .f32) (a7 : FVec Ideal S32x2 .f32) (a8 : FVec Ideal S2 .f32)
    (h : Cert.Pre_finite_inputs.fn (F := Ideal) a0 a1 a2 a3 a4 a5 a6 a7 a8 = (fun _ => 1#1)) :
    AllReal a0 ∧ AllReal a3 ∧ AllReal a4 ∧ AllReal a5 ∧ AllReal a6 ∧ AllReal a7 ∧ AllReal a8 := by
  -- the predicate's one entry, unfolded to the conjunction of the seven arguments' bits
  have h0 := congrFun h ValueIdx.ix0
  unfold fn fn_part1 at h0
  dsimp only at h0
  -- split the conjunction, outermost first: ((((((r0 ∧ r3) ∧ r4) ∧ r5) ∧ r6) ∧ r7) ∧ r8)
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨allReal_of_all_lt_inf a0 _ _ _ e0, allReal_of_all_lt_inf a3 _ _ _ e3, allReal_of_all_lt_inf a4 _ _ _ e4,
    allReal_of_all_lt_inf a5 _ _ _ e5, allReal_of_all_lt_inf a6 _ _ _ e6, allReal_of_all_lt_inf a7 _ _ _ e7,
    allReal_of_all_lt_inf a8 _ _ _ e8⟩

end Cert.Pre_finite_inputs.PreReal

end
-- ==== Proof.lean ====
/-
  A two-layer graph convolution, a mean pool over graphs, a linear classifier and the logarithm of a softmax: the
  kernel program computes the two feature transforms, the two bias-then-maximum-with-zero layers and the classifier in
  five tiled regions and leaves the gathers, the scatter-adds, the degree normalisation and the pooling to the same host
  operations the reference program uses. Over the extended reals the tiled products are the reference's products
  (a sum over the contracted coordinate, whatever the tiling and the intermediate narrowing of the format), the
  bias and the maximum with zero are pointwise, and every host operation is shared, so the two programs agree stage
  by stage up to the logits. The last stage differs in its grouping: the kernel subtracts (max + log Σ exp (l − max))
  from each logit, the reference subtracts the maximum and then the logarithm. These agree exactly where the logits
  are real numbers, and they are: with finite inputs every node's degree is at least one (its self loop), so the
  normalisation is a positive real, every product, gather and scatter-add keeps real entries, and the pooled counts
  are taken at least one before they divide.

  The frames of the two kernel programs are the generated ones; the reference's is its generated run with the result
  dropped; the idealization rewrote nothing.
-/
import proofs.«133488_j43207370998208_1_alg».proof.Defs
import proofs.«133488_j43207370998208_1_alg».proof.Proof.Gen.Kernel
import proofs.«133488_j43207370998208_1_alg».proof.Proof.Gen.Kernel.Skeleton
import proofs.«133488_j43207370998208_1_alg».proof.Proof.Gen.Kernel.Launch
import proofs.«133488_j43207370998208_1_alg».proof.Proof.Gen.Kernel.Points
import proofs.«133488_j43207370998208_1_alg».proof.Proof.Gen.Kernel.Frame
import proofs.«133488_j43207370998208_1_alg».proof.Proof.Gen.KernelIdeal
import proofs.«133488_j43207370998208_1_alg».proof.Proof.Gen.KernelIdeal.Skeleton
import proofs.«133488_j43207370998208_1_alg».proof.Proof.Gen.KernelIdeal.Launch
import proofs.«133488_j43207370998208_1_alg».proof.Proof.Gen.KernelIdeal.Points
import proofs.«133488_j43207370998208_1_alg».proof.Proof.Gen.KernelIdeal.Frame
import proofs.«133488_j43207370998208_1_alg».proof.Proof.Gen.ReferenceIdeal
import proofs.«133488_j43207370998208_1_alg».proof.Proof.Gen.ReferenceIdeal.Run
import proofs.«133488_j43207370998208_1_alg».proof.Proof.Gen.ReferenceIdeal.Read
import proofs.«133488_j43207370998208_1_alg».proof.Proof.Gen.Pre_finite_inputs
import proofs.«133488_j43207370998208_1_alg».proof.Proof.KRun
import proofs.«133488_j43207370998208_1_alg».proof.Proof.Stage
import proofs.«133488_j43207370998208_1_alg».proof.Proof.RefRead
import proofs.«133488_j43207370998208_1_alg».proof.Proof.LsmMath
import proofs.«133488_j43207370998208_1_alg».proof.Proof.FinChain
import proofs.«133488_j43207370998208_1_alg».proof.Proof.PreReal
import Idealize.ShloMosaic.Adequacy
import Idealize.ShloMosaic.Init

noncomputable section

namespace Cert.Proof

open Idealize.ShloMosaic Idealize.ShloMosaic.TcCoe Idealize.SL.Sem

/-- The two idealized programs, run from memories that agree on the arguments, end with the same result: the
    reference's last stage of the kernel's arguments. -/
theorem algebraic : Cert.algebraic_KernelIdeal_ReferenceIdeal := by
  intro m ρ m' ρ' hpre hagree
  refine ⟨fun c => Cert.ReferenceIdeal.Read.val_main_v106 (F := Ideal) (Cert.Bridge.a0 m c) (Cert.Bridge.a1 m c) (Cert.Bridge.a2 m c) (Cert.Bridge.a3 m c) (Cert.Bridge.a4 m c) (Cert.Bridge.a5 m c) (Cert.Bridge.a6 m c) (Cert.Bridge.a7 m c) (Cert.Bridge.a8 m c), ?_, ?_⟩
  · -- the kernel: its result buffer holds the kernel's grouping of the reference's logits, which are real
    refine (θ_run Cert.KernelIdeal.defs _ _).mono (fun r h c => ⟨(h c).1.trans ?_, (h c).2⟩)
      (Cert.KernelIdeal.KRun.run (F := Ideal) m ρ)
    obtain ⟨h0, h3, h4, h5, h6, h7, h8⟩ := Cert.Pre_finite_inputs.PreReal.real_of_pre _ _ _ _ _ _ _ _ _ (hpre c)
    rw [Cert.Bridge.W9_v72 m ρ c,
      Cert.Fns.lsmOuter_eq_lsmInner _ (Cert.ReferenceIdeal.FinChain.logits_real _ _ _ _ _ _ _ _ _ h0 h3 h4 h5 h6 h7 h8)]
    exact (Cert.ReferenceIdeal.RefRead.v106_eq _ _ _ _ _ _ _ _ _).symm
  · -- the reference: its generated run, its arguments those of the kernel
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v106_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
